-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096 : S_.BroadcastsInDim S4096 (![] : Fin 0 → Fin S4096.rank)
  reducesTo_S4096_S_d0 : S4096.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4096x128 .f32) (main_arg1 : FVec F S2048x2048 .f32) (main_arg2 : FVec F S4096 .f32) (main_arg3 : FVec F S64x128 .f32) (main_arg4 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S4096x64 : Shape := ⟨2, ![4096, 64]⟩
abbrev S64x2048 : Shape := ⟨2, ![64, 2048]⟩
abbrev S2048x64 : Shape := ⟨2, ![2048, 64]⟩
abbrev S2048 : Shape := ⟨1, ![2048]⟩
abbrev S2048x1 : Shape := ⟨2, ![2048, 1]⟩
abbrev S512x2048 : Shape := ⟨2, ![512, 2048]⟩
abbrev S64x512 : Shape := ⟨2, ![64, 512]⟩
abbrev S512x1 : Shape := ⟨2, ![512, 1]⟩
abbrev S512x64 : Shape := ⟨2, ![512, 64]⟩

abbrev nBuf : Space → Nat
  | .hbm => 17
  | .vmem => 17
  | .smem => 0
  | _ => 0

abbrev bufTy : (tb : Table) → Fin (tcTables nBuf tb) → BufTy
  | .hbm, ⟨0, _⟩ => ⟨S4096x128, .f32⟩
  | .hbm, ⟨1, _⟩ => ⟨S2048x2048, .f32⟩
  | .hbm, ⟨2, _⟩ => ⟨S4096, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S1x64, .f32⟩
  | .hbm, ⟨7, _⟩ => ⟨S4096x64, .f32⟩
  | .hbm, ⟨8, _⟩ => ⟨S64x2048, .f32⟩
  | .hbm, ⟨9, _⟩ => ⟨S2048x64, .f32⟩
  | .hbm, ⟨10, _⟩ => ⟨S2048, .f32⟩
  | .hbm, ⟨11, _⟩ => ⟨S2048x1, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S4096x64, .f32⟩
  | .local _ .vmem, ⟨0, _⟩ => ⟨S4096x128, .f32⟩
  | .local _ .vmem, ⟨1, _⟩ => ⟨S128x64, .f32⟩
  | .local _ .vmem, ⟨2, _⟩ => ⟨S1x64, .f32⟩
  | .local _ .vmem, ⟨3, _⟩ => ⟨S4096x64, .f32⟩
  | .local _ .vmem, ⟨4, _⟩ => ⟨S64x2048, .f32⟩
  | .local _ .vmem, ⟨5, _⟩ => ⟨S512x2048, .f32⟩
  | .local _ .vmem, ⟨6, _⟩ => ⟨S512x2048, .f32⟩
  | .local _ .vmem, ⟨7, _⟩ => ⟨S64x512, .f32⟩
  | .local _ .vmem, ⟨8, _⟩ => ⟨S64x512, .f32⟩
  | .local _ .vmem, ⟨9, _⟩ => ⟨S2048x64, .f32⟩
  | .local _ .vmem, ⟨10, _⟩ => ⟨S512x1, .f32⟩
  | .local _ .vmem, ⟨11, _⟩ => ⟨S512x1, .f32⟩
  | .local _ .vmem, ⟨12, _⟩ => ⟨S2048x1, .f32⟩
  | .local _ .vmem, ⟨13, _⟩ => ⟨S512x64, .f32⟩
  | .local _ .vmem, ⟨14, _⟩ => ⟨S512x64, .f32⟩
  | .local _ .vmem, ⟨15, _⟩ => ⟨S2048x64, .f32⟩
  | .local _ .vmem, ⟨16, _⟩ => ⟨S64x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![4], ![false]⟩

def k1_cond3 (i : grid1.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_13 : BitVec 32 := 0#32
  let v20 : BitVec 1 := Scalar.cmpi .ne v19 c0_i32_13
  v20

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  transposes_S64x128_S128x64_1_0 : S64x128.Transposes [1, 0] S128x64
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S4096x64_o0_0_S2048x64 : S4096x64.Slices ![0, 0] S2048x64
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  slices_S4096x64_S2048x64_2048_0 : S4096x64.Slices ![2048, 0] S2048x64
  slices_S4096_S2048_0 : S4096.Slices ![0] S2048
  shapeCasts_S2048_S2048x1 : S2048.ShapeCasts S2048x1
  slices_S4096_S2048_2048 : S4096.Slices ![2048] S2048
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S512x1_S512x64 : S512x1.Broadcasts S512x64
  inb_S512x64_S512x64_0_0 : ∀ a, (![0, 0] : Fin 2 → Nat) a + S512x64.size a ≤ S512x64.size a
  h_S512x64 : 0 < S512x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x2048_S64x2048 : S64x2048.ShapeCasts S64x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S64x2048_p1_0_S2048x64 : S64x2048.Transposes [1, 0] S2048x64
  broadcasts_S2048x1_S2048x64 : S2048x1.Broadcasts S2048x64
  concatenates_S2048x64_S2048x64_S4096x64_d0 : Shape.Concatenates [S2048x64, S2048x64] S4096x64 0
  dot_S4096x128_S128x64_S4096x64_1_0_0_1_n_n_wf : DotDims.WF S4096x128 S128x64 S4096x64 [1] [0] [0] [1] [] []
  dot_S512x2048_S2048x64_S512x64_1_0_0_1_n_n_wf : DotDims.WF S512x2048 S2048x64 S512x64 [1] [0] [0] [1] [] []
  dot_S64x512_S512x2048_S64x2048_1_0_0_1_n_n_wf : DotDims.WF S64x512 S512x2048 S64x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x2048.size a
  hwx1_1 : ∀ i : grid1.Coords, EltTy.bits .f32 = 32 ∨ (Rect.block (s := S64x2048) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S2048x1.size a
  hwx1_4 : ∀ i : grid1.Coords, EltTy.bits .f32 = 32 ∨ (Rect.block (s := S2048x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S2048x64.size a
  hwx1_5 : ∀ i : grid1.Coords, EltTy.bits .f32 = 32 ∨ (Rect.block (s := S2048x64) S512x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S2048x64.size a
  hwx1_6 : ∀ i : grid1.Coords, EltTy.bits .f32 = 32 ∨ (Rect.block (s := S2048x64) S2048x64.size (cc1_transform_6 i) (hinb1_6 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2_0) true false (stage0_3 0) (sem0_3 0) (Memref.isWhole_whole _) (hstage0_3 0)

abbrev win0_4 : Pipeline.Window sig grid0 :=
  Pipeline.Window.whole (Memref.whole main_v2_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S512x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S2048x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S_ : Shape := ⟨0, ![]⟩
abbrev S2048x4096 : Shape := ⟨2, ![2048, 4096]⟩
abbrev S4096x4096 : Shape := ⟨2, ![4096, 4096]⟩
abbrev S4096x1 : Shape := ⟨2, ![4096, 1]⟩
abbrev S128x64 : Shape := ⟨2, ![128, 64]⟩
abbrev S4096x64 : Shape := ⟨2, ![4096, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2048x2048, .f32⟩
  | .hbm, ⟨2, _⟩ => ⟨S4096, .f32⟩
  | .hbm, ⟨3, _⟩ => ⟨S64x128, .f32⟩
  | .hbm, ⟨4, _⟩ => ⟨S64, .f32⟩
  | .hbm, ⟨5, _⟩ => ⟨S_, .f32⟩
  | .hbm, ⟨6, _⟩ => ⟨S2048x2048, .f32⟩
  | .hbm, ⟨7, _⟩ => ⟨S2048x4096, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x1, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S128x64, .f32⟩
  | .hbm, ⟨28, _⟩ => ⟨S4096x64, .f32⟩
  | .hbm, ⟨29, _⟩ => ⟨S1x64, .f32⟩
  | .hbm, ⟨30, _⟩ => ⟨S4096x64, .f32⟩
  | .hbm, ⟨31, _⟩ => ⟨S4096x64, .f32⟩
  | .hbm, ⟨32, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  concatenates_S2048x2048_S2048x2048_S2048x4096_d1 : Shape.Concatenates [S2048x2048, S2048x2048] S2048x4096 1
  transposes_S2048x2048_S2048x2048_1_0 : S2048x2048.Transposes [1, 0] S2048x2048
  concatenates_S2048x4096_S2048x4096_S4096x4096_d0 : Shape.Concatenates [S2048x4096, S2048x4096] S4096x4096 0
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x4096_S4096x4096_1_0_0_1_n_n_wf : DotDims.WF S4096x4096 S4096x4096 S4096x4096 [1] [0] [0] [1] [] []
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KB.Region0.lean ====
import proofs.«107181_g11785390260513_cont_main3_35_5_alg».proof.Proof.Gen.Kernel.Launch
import proofs.«107181_g11785390260513_cont_main3_35_5_alg».proof.Proof.Gen.Kernel.Skeleton
import proofs.«107181_g11785390260513_cont_main3_35_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the support kernel

The first pallas_call has no grid: its one point sees every window's whole array. The body reads the
three inputs `x` (4096×128), `Wt` (128×64) and the bias row (1×64), and overwrites both output buffers
in full: the first with `sup = x · Wt + bias`, the second with the transpose of the top 2048 rows of
`sup`. Each output buffer is also read once before it is overwritten; the value read is never used.

This module is the frame half, for any float model `F`: what the body leaves in each staging buffer as
a function of the three input blocks (`out0_3`, `out0_4`), the body's triple, the pipeline's proof
data `dat0` at the region-entry contents `V`, and the body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each the whole buffer -/

abbrev rx0 : Rect S4096x128 := Rect.unit (s := S4096x128) ![0, 0] S4096x128.size inb_S4096x128_S4096x128_0_0
abbrev rx1 : Rect S128x64 := Rect.unit (s := S128x64) ![0, 0] S128x64.size inb_S128x64_S128x64_0_0
abbrev rx2 : Rect S1x64 := Rect.unit (s := S1x64) ![0, 0] S1x64.size inb_S1x64_S1x64_0_0
abbrev ry3 : Rect S4096x64 := Rect.unit (s := S4096x64) ![0, 0] S4096x64.size inb_S4096x64_S4096x64_0_0
abbrev ry4 : Rect S64x2048 := Rect.unit (s := S64x2048) ![0, 0] S64x2048.size inb_S64x2048_S64x2048_0_0

/-! ## What the body leaves in each output buffer -/

/-- The first output buffer after the body: its one store, of `x · Wt + bias` of the three loads. -/
def out0_3 (x0 : Vec F S4096x128 .f32) (x1 : Vec F S128x64 .f32) (x2 : Vec F S1x64 .f32) : Vec F S4096x64 .f32 :=
  View.canon [⟨ry3, k0_pay1 (View.ld x0 rx0) (View.ld x1 rx1) (View.ld x2 rx2)⟩]

/-- The second output buffer after the body: its one store, of the transposed top half of the same sum. -/
def out0_4 (x0 : Vec F S4096x128 .f32) (x1 : Vec F S128x64 .f32) (x2 : Vec F S1x64 .f32) : Vec F S64x2048 .f32 :=
  View.canon [⟨ry4, k0_pay2 (View.ld x0 rx0) (View.ld x1 rx1) (View.ld x2 rx2)⟩]

/-! ## The pipeline's proof data -/

/-- The proof data of pipeline 0 on core `c`: the arrays as the region finds them; after the body each input's
    buffer still at its block, each output's at `out0_W` of the three input blocks; the invariant is the one of a
    body that touches only its staging buffers; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The input windows' buffers hold their blocks -/

/-- An input window's current staging buffer holds its block whether or not the point fetched it, for any
    proof data whose array is the region-entry contents and whose body leaves the block in place. The windows
    are whole arrays: uncut, and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store into each output buffer covers it -/

theorem cover0_3 (p0 : Vec F S4096x64 .f32) (y : S4096x64.Idx) :
    ∃ pc ∈ ([⟨ry3, p0⟩] : List (View.Piece (Elt F) S4096x64 .f32)), y ∈ pc.1.set :=
  View.cover_of_tiled [⟨ry3, p0⟩] S4096x64.size (by rfl) y

theorem cover0_4 (p0 : Vec F S64x2048 .f32) (y : S64x2048.Idx) :
    ∃ pc ∈ ([⟨ry4, p0⟩] : List (View.Piece (Elt F) S64x2048 .f32)), y ∈ pc.1.set :=
  View.cover_of_tiled [⟨ry4, p0⟩] S64x2048.size (by rfl) y

/-! ## The body's triple -/

set_option maxHeartbeats 1000000 in
/-- The body on whole staging memrefs — the three inputs' at contents `x0 x1 x2`, the two outputs' at anything —
    runs to the continuation with the inputs' as they were and the outputs' at `out0_3`, `out0_4` of the inputs.
    The load of each output buffer ahead of its store reads whatever was there and changes nothing. -/
theorem sound_kernel0 (c : Dev nD) (E : Set ℕ)
    (arg0 : Memref sig .tc .vmem S4096x128 .f32) (harg0 : arg0.IsWhole)
    (arg1 : Memref sig .tc .vmem S128x64 .f32) (harg1 : arg1.IsWhole)
    (arg2 : Memref sig .tc .vmem S1x64 .f32) (harg2 : arg2.IsWhole)
    (arg3 : Memref sig .tc .vmem S4096x64 .f32) (harg3 : arg3.IsWhole)
    (arg4 : Memref sig .tc .vmem S64x2048 .f32) (harg4 : arg4.IsWhole)
    (x0 : Vec F S4096x128 .f32) (x1 : Vec F S128x64 .f32) (x2 : Vec F S1x64 .f32) (K : PUnit → sProp 𝕄) :
    iprop(owns (c : Thread nD τ) arg0 fullShare x0 ∗ owns (c : Thread nD τ) arg1 fullShare x1
        ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out0_3 x0 x1 x2)
            ∗ owns (c : Thread nD τ) arg4 fullShare (out0_4 x0 x1 x2)) -∗ K ⟨⟩))
      ⊢ wp frame (wpE (defs₀ (F := F)) Variants.none c none) E
          (cc0__support_body arg0 harg0 arg1 harg1 arg2 harg2 arg3 harg3 arg4 harg4) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  · iexists _; isplitr
    swap; · iexact H4
    ipureintro
    exact View.read_writes_eq_canon _ _ _ (cover0_4 _)

/-! ## The body obligation -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at a point: the input buffers hold their blocks, so the triple applies at those three blocks; the
    invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its two conjunctions over the five windows written out. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1Dat.lean ====
import proofs.«107181_g11785390260513_cont_main3_35_5_alg».proof.Proof.Gen.Kernel.Launch
import proofs.«107181_g11785390260513_cont_main3_35_5_alg».proof.Proof.Gen.Kernel.Skeleton
import proofs.«107181_g11785390260513_cont_main3_35_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 (the aggregation call): the proof data

The call runs over four row blocks of the adjacency. At block `t` it reads the block `A_t` (512 rows of `adj`),
the matching 512 columns of `sup1ᵀ`, all of `sup2`, 512 entries of `d1` and all of `d2`. It leaves
`d1_t * (A_t · sup2)` in the top output's block, and keeps in a scratch accumulator the partial products
`acc_t = acc_{t-1} + sup1ᵀ_t · A_t` (`acc_0 = sup1ᵀ_0 · A_0`); after the last block the bottom output is
`d2 * acc_3ᵀ`. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at point `t`, each at its literal type: the adjacency's row block, the matching columns of
    `sup1ᵀ`, `sup2`, the row block of `d1`, and `d2`. -/
abbrev adjB (c : Dev nD) (t : Fin cfg1.N) : Vec F S512x2048 .f32 := iblk1 V c 0 t
abbrev s1tB (c : Dev nD) (t : Fin cfg1.N) : Vec F S64x512 .f32 := iblk1 V c 1 t
abbrev sup2B (c : Dev nD) (t : Fin cfg1.N) : Vec F S2048x64 .f32 := iblk1 V c 2 t
abbrev d1B (c : Dev nD) (t : Fin cfg1.N) : Vec F S512x1 .f32 := iblk1 V c 3 t
abbrev d2B (c : Dev nD) (t : Fin cfg1.N) : Vec F S2048x1 .f32 := iblk1 V c 4 t

/-- THE ACCUMULATION. What the scratch accumulator holds after the body at position `n`: the first block's product
    at the first point, afterwards the point's product added to what the point before left. -/
def acc1 (c : Dev nD) : (n : ℕ) → n < cfg1.N → Vec F S64x2048 .f32
  | 0, hn => k1_pay3 (adjB V c ⟨0, hn⟩) (s1tB V c ⟨0, hn⟩)
  | n + 1, hn => k1_pay4 (adjB V c ⟨n + 1, hn⟩) (s1tB V c ⟨n + 1, hn⟩) (acc1 c n (Nat.lt_of_succ_lt hn))

theorem acc1_zero (c : Dev nD) (t : Fin cfg1.N) (hz : t.val = 0) :
    acc1 V c t.val t.isLt = k1_pay3 (adjB V c t) (s1tB V c t) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = k1_pay4 (adjB V c t) (s1tB V c t) (acc1 V c (t.val - 1) (Nat.lt_of_le_of_lt (Nat.sub_le _ _) t.isLt)) := by
  obtain ⟨n, hn⟩ := t
  cases n with
  | zero => exact absurd rfl hz
  | succ n => rfl

/-- The scratch accumulator, a whole scoped buffer of the kernel's own, passed beside the windows. -/
abbrev scM1 : Memref sig .tc .vmem S64x2048 .f32 := Memref.whole cc1_scratch0

/-- The region's invariant with the accumulator owned as `S` says: the other call's staging buffers at anything, the
    accumulator, the generator register at some state. -/
abbrev PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ S) ∗ (∃ r, prngReg c r))

/-- What the launch hands the region: the accumulator at anything. -/
theorem PhiA1_eq (c : Dev nD) :
    (Pipeline.ΦA spec1 c : sProp 𝕄) = PhiWith c iprop(∃ d, owns (c : Thread nD τ) scM1 fullShare d) := by
  unfold Pipeline.ΦA; rw [scopedRest1_eq]; simp only [scM1, owns_whole]; try rfl

/-- The region invariant before position `n`: before the first point the launch's (the accumulator at anything);
    afterwards the accumulator at what the point before left. -/
def Phi1 (c : Dev nD) : (n : ℕ) → n ≤ cfg1.N → sProp 𝕄
  | 0, _ => Pipeline.ΦA spec1 c
  | n + 1, hn => PhiWith c (owns (c : Thread nD τ) scM1 fullShare (acc1 V c n hn))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = PhiWith c (owns (c : Thread nD τ) scM1 fullShare (acc1 V c n hn)) := rfl

theorem Phi1_pos (c : Dev nD) (n : ℕ) (h : n ≤ cfg1.N) (hz : n ≠ 0) :
    Phi1 V c n h = PhiWith c (owns (c : Thread nD τ) scM1 fullShare (acc1 V c (n - 1) (by omega))) := by
  cases n with
  | zero => exact absurd rfl hz
  | succ n => rfl

/-- The proof data of the aggregation call on core `c`: the arrays as the region finds them (`V`); after the body at
    point `t` each input's buffer at its block, the top output's at `d1_t * (A_t · sup2)`, the bottom output's at
    `d2 * accᵀ` (written back at the last point only, where `acc` is the whole sum); the invariant carries the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (adjB V c t) (d1B V c t) (sup2B V c t)
    | ⟨6, _⟩ => k1_pay5 (d2B V c t) (acc1 V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t) : (dat1 V c).owed t = 0 := rfl

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (adjB V c t) (d1B V c t) (sup2B V c t) := by dsimp only [dat1]
theorem after1_6 (c : Dev nD) (t : Fin cfg1.N) :
    (dat1 V c).after 6 t = k1_pay5 (d2B V c t) (acc1 V c t.val t.isLt) := by dsimp only [dat1]

example (c : Dev nD) : True := by
  have := (dat1 V c).share_full fun _ => rfl
  trivial

end Cert.Kernel.Hand

end
-- ==== Proof.KB.Region1Runs.lean ====
import proofs.«107181_g11785390260513_cont_main3_35_5_alg».proof.Proof.Gen.Kernel.Launch
import proofs.«107181_g11785390260513_cont_main3_35_5_alg».proof.Proof.Gen.Kernel.Skeleton
import proofs.«107181_g11785390260513_cont_main3_35_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«107181_g11785390260513_cont_main3_35_5_alg».proof.Proof.KB.Region1Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (the aggregation call): the body's branch conditions and its run, case by case

The body branches three times on the grid coordinate `i`: `i = 0` (the accumulator is set), `i > 0` (it is added
to), `i = 3` (the bottom output is stored). Over the four points that makes three cases: the first point, the two
middle points, the last point. -/

/-! ## The body's branch conditions -/

/-- The condition of the body's first `scf.if` (`i = 0`), from the grid coordinates. -/
abbrev cond1_0 (i : grid1.Coords) : Prop := (Scalar.cmpi .ne (Scalar.extui (Scalar.cmpi .eq (BitVec.ofNat 32 (i 0).val) 0#32)) 0#32) = 1#1
/-- It holds at the first point — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (`i > 0`, signed), from the grid coordinates. -/
abbrev cond1_1 (i : grid1.Coords) : Prop := (Scalar.cmpi .ne (Scalar.extui (Scalar.cmpi .sgt (BitVec.ofNat 32 (i 0).val) 0#32)) 0#32) = 1#1
/-- It holds at every point but the first — decided over the grid. -/
theorem hcond1_1 : ∀ t : Fin cfg1.N, cond1_1 (grid1.coords t) ↔ t.val % 4 ≠ 0 :=
  (by decide +kernel : ∀ t : Fin grid1.N, cond1_1 (grid1.coords t) ↔ t.val % 4 ≠ 0)

/-- The condition of the body's third `scf.if` (`i = 3`), from the grid coordinates. -/
abbrev cond1_2 (i : grid1.Coords) : Prop := k1_cond3 i = 1#1
/-- It holds at the last point — decided over the grid. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the third condition fails the bottom output is idle: nothing is stored into it, -/
theorem idleAt1_6 : ∀ t : Fin cfg1.N, ¬cond1_2 (grid1.coords t) → cfg1.idle 6 (grid1.coords t) = true := by decide +kernel
/-- and the pipeline does not write its block back. -/
theorem noFlush1_6 : ∀ t : Fin cfg1.N, ¬cond1_2 (grid1.coords t) → (cfg1.win 6).flush t = false := by decide +kernel
/-- Where it holds the bottom output is live. -/
theorem liveAt1_6 : ∀ t : Fin cfg1.N, cond1_2 (grid1.coords t) → cfg1.idle 6 (grid1.coords t) = false := by decide +kernel

/-! ## The staging memrefs at a point -/

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x64 .f32 := win1_6.stage (cfg1.slots t 6)
abbrev hs1_6 (t : Fin cfg1.N) : (ms1_6 t).IsWhole := hstage1_6 ((cfg1.slots t 6).cast nbuf1_6)

/-! ## A whole-buffer store leaves its payload -/

/-- The zero offsets of a rank-2 store, however spelt. -/
theorem hz2 : (![0, 0] : Fin 2 → ℕ) = fun _ => 0 := by
  funext a; fin_cases a <;> rfl

/-- A memref after ONE store through the whole-shape rectangle at zero offsets reads the store's payload, whatever it
    held before. -/
theorem read_whole_store {S : Shape} {e : EltTy} (m : Memref sig .tc .vmem S e)
    {off : Fin S.rank → ℕ} (hoff : off = fun _ => 0) (inb : ∀ a, off a + S.size a ≤ S.size a)
    (f : m.view.ty.Contents (Elt F)) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero hoff inb y⟩),
    View.canon_unit_zero hoff inb]

set_option maxHeartbeats 1000000 in
/-- THE BODY AT THE FIRST POINT (the first condition holds, the other two fail). On whole staging memrefs — the inputs'
    at their blocks, the top output's and the accumulator at anything, the bottom output's (idle here) at contents
    `xi6` handed back untouched — the body runs to the continuation holding the inputs as they were, the top output at
    `d1 * (A · sup2)`, the accumulator at the first product `sup1ᵀ · A`. -/
theorem kernelRun1_A (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : cond1_0 i) (hc1 : ¬cond1_1 i) (hc2 : ¬cond1_2 i)
    (x0 : Vec F S512x2048 .f32) (x1 : Vec F S64x512 .f32) (x2 : Vec F S2048x64 .f32) (x3 : Vec F S512x1 .f32) (x4 : Vec F S2048x1 .f32)
    (xi6 : Vec F S2048x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xi6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2) ∗ owns (c : Thread nD τ) arg7 fullShare xi6
            ∗ owns (c : Thread nD τ) arg8 fullShare (k1_pay3 x0 x1)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr; · ipureintro; exact harg7.read_unread _
    iexact H6
  iexists _; isplitr
  swap; · iexact HS
  ipureintro
  refine (read_whole_store _ hz2 _ _ _).trans ?_
  simp only [View.readAt_eq_ld, harg1.read_unread, harg2.read_unread,
    View.ld_unit_zero (S := S512x2048) hz2, View.ld_unit_zero (S := S64x512) hz2]

set_option maxHeartbeats 1000000 in
/-- THE BODY AT A MIDDLE POINT (only the second condition holds). The accumulator comes in at what the point before
    left, `xs`, and goes out with this point's product added; the bottom output is idle and handed back untouched. -/
theorem kernelRun1_B (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : ¬cond1_2 i)
    (x0 : Vec F S512x2048 .f32) (x1 : Vec F S64x512 .f32) (x2 : Vec F S2048x64 .f32) (x3 : Vec F S512x1 .f32) (x4 : Vec F S2048x1 .f32)
    (xi6 : Vec F S2048x64 .f32) (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xi6
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2) ∗ owns (c : Thread nD τ) arg7 fullShare xi6
            ∗ owns (c : Thread nD τ) arg8 fullShare (k1_pay4 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  obtain rfl := harg8.eq_unread hfs
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr; · ipureintro; exact harg7.read_unread _
    iexact H6
  iexists _; isplitr
  swap; · iexact HS
  ipureintro
  refine (read_whole_store _ hz2 _ _ _).trans ?_
  simp only [View.readAt_eq_ld, harg1.read_unread, harg2.read_unread, harg8.read_unread,
    View.ld_unit_zero (S := S512x2048) hz2, View.ld_unit_zero (S := S64x512) hz2, View.ld_unit_zero (S := S64x2048) hz2]

set_option maxHeartbeats 1000000 in
/-- THE BODY AT THE LAST POINT (the second and third conditions hold). The accumulator comes in at what the point
    before left, `xs`, and goes out with this point's product added; the bottom output, at anything before, is left at
    `d2` times the transposed accumulator just stored. -/
theorem kernelRun1_C (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : cond1_2 i)
    (x0 : Vec F S512x2048 .f32) (x1 : Vec F S64x512 .f32) (x2 : Vec F S2048x64 .f32) (x3 : Vec F S512x1 .f32) (x4 : Vec F S2048x1 .f32)
    (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2)
            ∗ owns (c : Thread nD τ) arg7 fullShare (k1_pay5 x4 (k1_pay4 x0 x1 xs))
            ∗ owns (c : Thread nD τ) arg8 fullShare (k1_pay4 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr
    swap; · iexact H6
    ipureintro
    refine (read_whole_store _ hz2 _ _ _).trans ?_
    sl_unfold_words
    simp only [View.readAt_eq_ld, harg1.read_unread, harg2.read_unread, harg5.read_unread, harg8.read_unread,
      View.ld_unit_zero (S := S512x2048) hz2, View.ld_unit_zero (S := S64x512) hz2, View.ld_unit_zero (S := S64x2048) hz2,
      View.ld_unit_zero (S := S2048x1) hz2, View.readCov_unit_zero (S := S64x2048) _ hz2]
  iexists _; isplitr
  swap; · iexact HS
  ipureintro
  refine (read_whole_store _ hz2 _ _ _).trans ?_
  simp only [View.readAt_eq_ld, harg1.read_unread, harg2.read_unread, harg8.read_unread,
    View.ld_unit_zero (S := S512x2048) hz2, View.ld_unit_zero (S := S64x512) hz2, View.ld_unit_zero (S := S64x2048) hz2]

end Cert.Kernel.Hand

end
-- ==== Proof.KB.Region1.lean ====
import proofs.«107181_g11785390260513_cont_main3_35_5_alg».proof.Proof.Gen.Kernel.Launch
import proofs.«107181_g11785390260513_cont_main3_35_5_alg».proof.Proof.Gen.Kernel.Skeleton
import proofs.«107181_g11785390260513_cont_main3_35_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107181_g11785390260513_cont_main3_35_5_alg».proof.Proof.KB.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 (the aggregation call): the body obligation

At every point the pipeline hands the body each input's staging buffer at its block and the outputs' at anything (the
bottom output's, where it is idle, to be handed back as found); the invariant hands it the accumulator at what the
point before left (at anything at the first point). The point's case of the run applies, and what it leaves is the
proof data's `after` and the next point's invariant. -/

/-! ## What the body finds in the inputs' buffers: their blocks, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the three conditions say which
    case the point is in; the invariant hands over the accumulator (at anything at the first point, at the partial sum
    afterwards) and takes it back at this point's partial sum; the bottom output is handed back as found at the first
    three points and left at `d2 * accᵀ` at the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · -- the first point
    have hz : t.val = 0 := by omega
    have c0 : cond1_0 (grid1.coords t) := (hcond1_0 t).mpr h0
    have c1 : ¬cond1_1 (grid1.coords t) := fun h => (hcond1_1 t).mp h h0
    have c2 : ¬cond1_2 (grid1.coords t) := fun h => by have := (hcond1_2 t).mp h; omega
    rw [Dat.leavesExact_idle (dat1 V c) 6 t (idleAt1_6 t c2) (noFlush1_6 t c2)]
    rw [acc1_zero V c t hz]
    rw [Phi1_castSucc V c t, Phi1_zero V c _ _ hz, PhiA1_eq]
    iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_A c (grid1.coords t) _ _ _ _ _ _ _ _ _ _ _ _ _ _ _ _ c0 c1 c2 (adjB V c t) (s1tB V c t) (sup2B V c t) (d1B V c t) (d2B V c t) ((dat1 V c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [A0 A1 A2 A3 A4 HS Hg]
    · isplitl [A0 A1 A2 A3 A4 HS]
      · isplitl [A0]; · iexact A0
        isplitl [A1]; · iexact A1
        isplitl [A2]; · iexact A2
        isplitl [A3]; · iexact A3
        isplitl [A4]; · iexact A4
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have c0 : ¬cond1_0 (grid1.coords t) := fun h => h0 ((hcond1_0 t).mp h)
    have c1 : cond1_1 (grid1.coords t) := (hcond1_1 t).mpr h0
    rw [acc1_pos V c t hz]
    rw [Phi1_castSucc V c t, Phi1_pos V c _ _ hz]
    by_cases h2 : t.val % 4 = 3
    · -- the last point
      have c2 : cond1_2 (grid1.coords t) := (hcond1_2 t).mpr h2
      rw [show (dat1 V c).leavesExact 6 t = owns (c : Thread nD τ) (ms1_6 t) fullShare ((dat1 V c).after 6 t) from by
        unfold Dat.leavesExact; rw [liveAt1_6 t c2], after1_6]
      rw [acc1_pos V c t hz]
      iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ c0 c1 c2 (adjB V c t) (s1tB V c t) (sup2B V c t) (d1B V c t) (d2B V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [A0 A1 A2 A3 A4 HS Hg]
      · isplitl [A0 A1 A2 A3 A4 HS]
        · isplitl [A0]; · iexact A0
          isplitl [A1]; · iexact A1
          isplitl [A2]; · iexact A2
          isplitl [A3]; · iexact A3
          isplitl [A4]; · iexact A4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have c2 : ¬cond1_2 (grid1.coords t) := fun h => h2 ((hcond1_2 t).mp h)
      rw [Dat.leavesExact_idle (dat1 V c) 6 t (idleAt1_6 t c2) (noFlush1_6 t c2)]
      iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c (grid1.coords t) _ _ _ _ _ _ _ _ _ _ _ _ _ _ _ _ c0 c1 c2 (adjB V c t) (s1tB V c t) (sup2B V c t) (d1B V c t) (d2B V c t) ((dat1 V c).before 6 t d6) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [A0 A1 A2 A3 A4 HS Hg]
      · isplitl [A0 A1 A2 A3 A4 HS]
        · isplitl [A0]; · iexact A0
          isplitl [A1]; · iexact A1
          isplitl [A2]; · iexact A2
          isplitl [A3]; · iexact A3
          isplitl [A4]; · iexact A4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives `ΦA` back: what the accumulator holds is forgotten. -/
theorem Phi_out1 (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A0, A1, A2, A3, A4, HS⟩, Hg⟩
  isplitl [A0 A1 A2 A3 A4 HS]
  · isplitl [A0]; · iexact A0
    isplitl [A1]; · iexact A1
    isplitl [A2]; · iexact A2
    isplitl [A3]; · iexact A3
    isplitl [A4]; · iexact A4
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.Kernel.Hand

end
-- ==== Proof.KB.Run.lean ====
/-
  The layer's program from the launch to the return: @main is a stretch of host operations, the support region,
  a second stretch, the aggregation region, and the closing concatenation. This module follows the contents of every
  unscoped buffer through those five items as a fold from the launch memory — a host stretch applies its operations,
  a region leaves in each of its windows' arrays what its write-backs add up to and every other buffer as it found
  it — and proves that every weakly fair execution terminates in a memory that holds, at every unscoped buffer, the
  fold's last valuation. The frame (the arguments end as launched) and the value of the result are both read off that.
-/
import proofs.«107181_g11785390260513_cont_main3_35_5_alg».proof.Proof.KB.Region0
import proofs.«107181_g11785390260513_cont_main3_35_5_alg».proof.Proof.KB.Region1
import proofs.«107181_g11785390260513_cont_main3_35_5_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- At launch. -/
abbrev W0 : Dev nD → Valuation τ sig (Elt F) := fun c b => m (c, b)
/-- After the first host stretch (the weights transposed, the bias as a row): the support region's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the support region's exit: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the support's second half, the two halves of the degrees as columns): the
    aggregation region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the aggregation region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the closing concatenation: the return. -/
abbrev W5 : Dev nD → Valuation τ sig (Elt F) := fun c => StableHlo.after hostOps2 (W4 m c)

/-! ## What a host stretch leaves alone -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The arguments end as launched

No host operation writes an argument; a region reads one through an input window (whose array ends as entered) or
does not touch it. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := (W4_arr m c 0).trans (((dat1 (E3 m) c).arrAt_in 0 rfl _).trans (A_eq1 (E3 m) c 0))
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data of both pipelines and the thread state -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The support region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from every unscoped buffer at `W3`, left at `W4`. Its invariant carries the
    accumulator scratch; it is made of the scoped rest at entry and gives the scoped rest back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of those segments. -/
theorem main_run (c : Dev nD) : main (F := F) c = Pipeline.Seg.run (segs m) := (main_chain c).trans (by chain_rfl)

set_option backward.isDefEq.respectTransparency.types false in
/-- From any memory with zero counters every weakly fair execution of @main terminates, nothing faulting, in a memory
    that holds the last valuation `W5` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Hand

end
-- ==== Proof.KI.Region0.lean ====
import proofs.«107181_g11785390260513_cont_main3_35_5_alg».proof.Proof.Gen.KernelIdeal.Launch
import proofs.«107181_g11785390260513_cont_main3_35_5_alg».proof.Proof.Gen.KernelIdeal.Skeleton
import proofs.«107181_g11785390260513_cont_main3_35_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the support kernel

The first pallas_call has no grid: its one point sees every window's whole array. The body reads the
three inputs `x` (4096×128), `Wt` (128×64) and the bias row (1×64), and overwrites both output buffers
in full: the first with `sup = x · Wt + bias`, the second with the transpose of the top 2048 rows of
`sup`. Each output buffer is also read once before it is overwritten; the value read is never used.

This module is the frame half, for any float model `F`: what the body leaves in each staging buffer as
a function of the three input blocks (`out0_3`, `out0_4`), the body's triple, the pipeline's proof
data `dat0` at the region-entry contents `V`, and the body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through: each the whole buffer -/

abbrev rx0 : Rect S4096x128 := Rect.unit (s := S4096x128) ![0, 0] S4096x128.size inb_S4096x128_S4096x128_0_0
abbrev rx1 : Rect S128x64 := Rect.unit (s := S128x64) ![0, 0] S128x64.size inb_S128x64_S128x64_0_0
abbrev rx2 : Rect S1x64 := Rect.unit (s := S1x64) ![0, 0] S1x64.size inb_S1x64_S1x64_0_0
abbrev ry3 : Rect S4096x64 := Rect.unit (s := S4096x64) ![0, 0] S4096x64.size inb_S4096x64_S4096x64_0_0
abbrev ry4 : Rect S64x2048 := Rect.unit (s := S64x2048) ![0, 0] S64x2048.size inb_S64x2048_S64x2048_0_0

/-! ## What the body leaves in each output buffer -/

/-- The first output buffer after the body: its one store, of `x · Wt + bias` of the three loads. -/
def out0_3 (x0 : Vec F S4096x128 .f32) (x1 : Vec F S128x64 .f32) (x2 : Vec F S1x64 .f32) : Vec F S4096x64 .f32 :=
  View.canon [⟨ry3, k0_pay1 (View.ld x0 rx0) (View.ld x1 rx1) (View.ld x2 rx2)⟩]

/-- The second output buffer after the body: its one store, of the transposed top half of the same sum. -/
def out0_4 (x0 : Vec F S4096x128 .f32) (x1 : Vec F S128x64 .f32) (x2 : Vec F S1x64 .f32) : Vec F S64x2048 .f32 :=
  View.canon [⟨ry4, k0_pay2 (View.ld x0 rx0) (View.ld x1 rx1) (View.ld x2 rx2)⟩]

/-! ## The pipeline's proof data -/

/-- The proof data of pipeline 0 on core `c`: the arrays as the region finds them; after the body each input's
    buffer still at its block, each output's at `out0_W` of the three input blocks; the invariant is the one of a
    body that touches only its staging buffers; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The input windows' buffers hold their blocks -/

/-- An input window's current staging buffer holds its block whether or not the point fetched it, for any
    proof data whose array is the region-entry contents and whose body leaves the block in place. The windows
    are whole arrays: uncut, and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store into each output buffer covers it -/

theorem cover0_3 (p0 : Vec F S4096x64 .f32) (y : S4096x64.Idx) :
    ∃ pc ∈ ([⟨ry3, p0⟩] : List (View.Piece (Elt F) S4096x64 .f32)), y ∈ pc.1.set :=
  View.cover_of_tiled [⟨ry3, p0⟩] S4096x64.size (by rfl) y

theorem cover0_4 (p0 : Vec F S64x2048 .f32) (y : S64x2048.Idx) :
    ∃ pc ∈ ([⟨ry4, p0⟩] : List (View.Piece (Elt F) S64x2048 .f32)), y ∈ pc.1.set :=
  View.cover_of_tiled [⟨ry4, p0⟩] S64x2048.size (by rfl) y

/-! ## The body's triple -/

set_option maxHeartbeats 1000000 in
/-- The body on whole staging memrefs — the three inputs' at contents `x0 x1 x2`, the two outputs' at anything —
    runs to the continuation with the inputs' as they were and the outputs' at `out0_3`, `out0_4` of the inputs.
    The load of each output buffer ahead of its store reads whatever was there and changes nothing. -/
theorem sound_kernel0 (c : Dev nD) (E : Set ℕ)
    (arg0 : Memref sig .tc .vmem S4096x128 .f32) (harg0 : arg0.IsWhole)
    (arg1 : Memref sig .tc .vmem S128x64 .f32) (harg1 : arg1.IsWhole)
    (arg2 : Memref sig .tc .vmem S1x64 .f32) (harg2 : arg2.IsWhole)
    (arg3 : Memref sig .tc .vmem S4096x64 .f32) (harg3 : arg3.IsWhole)
    (arg4 : Memref sig .tc .vmem S64x2048 .f32) (harg4 : arg4.IsWhole)
    (x0 : Vec F S4096x128 .f32) (x1 : Vec F S128x64 .f32) (x2 : Vec F S1x64 .f32) (K : PUnit → sProp 𝕄) :
    iprop(owns (c : Thread nD τ) arg0 fullShare x0 ∗ owns (c : Thread nD τ) arg1 fullShare x1
        ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1
            ∗ owns (c : Thread nD τ) arg2 fullShare x2
            ∗ owns (c : Thread nD τ) arg3 fullShare (out0_3 x0 x1 x2)
            ∗ owns (c : Thread nD τ) arg4 fullShare (out0_4 x0 x1 x2)) -∗ K ⟨⟩))
      ⊢ wp frame (wpE (defs₀ (F := F)) Variants.none c none) E
          (cc0__support_body arg0 harg0 arg1 harg1 arg2 harg2 arg3 harg3 arg4 harg4) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  · iexists _; isplitr
    swap; · iexact H4
    ipureintro
    exact View.read_writes_eq_canon _ _ _ (cover0_4 _)

/-! ## The body obligation -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at a point: the input buffers hold their blocks, so the triple applies at those three blocks; the
    invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its two conjunctions over the five windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Dat.lean ====
import proofs.«107181_g11785390260513_cont_main3_35_5_alg».proof.Proof.Gen.KernelIdeal.Launch
import proofs.«107181_g11785390260513_cont_main3_35_5_alg».proof.Proof.Gen.KernelIdeal.Skeleton
import proofs.«107181_g11785390260513_cont_main3_35_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 (the aggregation call): the proof data

The call runs over four row blocks of the adjacency. At block `t` it reads the block `A_t` (512 rows of `adj`),
the matching 512 columns of `sup1ᵀ`, all of `sup2`, 512 entries of `d1` and all of `d2`. It leaves
`d1_t * (A_t · sup2)` in the top output's block, and keeps in a scratch accumulator the partial products
`acc_t = acc_{t-1} + sup1ᵀ_t · A_t` (`acc_0 = sup1ᵀ_0 · A_0`); after the last block the bottom output is
`d2 * acc_3ᵀ`. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at point `t`, each at its literal type: the adjacency's row block, the matching columns of
    `sup1ᵀ`, `sup2`, the row block of `d1`, and `d2`. -/
abbrev adjB (c : Dev nD) (t : Fin cfg1.N) : Vec F S512x2048 .f32 := iblk1 V c 0 t
abbrev s1tB (c : Dev nD) (t : Fin cfg1.N) : Vec F S64x512 .f32 := iblk1 V c 1 t
abbrev sup2B (c : Dev nD) (t : Fin cfg1.N) : Vec F S2048x64 .f32 := iblk1 V c 2 t
abbrev d1B (c : Dev nD) (t : Fin cfg1.N) : Vec F S512x1 .f32 := iblk1 V c 3 t
abbrev d2B (c : Dev nD) (t : Fin cfg1.N) : Vec F S2048x1 .f32 := iblk1 V c 4 t

/-- THE ACCUMULATION. What the scratch accumulator holds after the body at position `n`: the first block's product
    at the first point, afterwards the point's product added to what the point before left. -/
def acc1 (c : Dev nD) : (n : ℕ) → n < cfg1.N → Vec F S64x2048 .f32
  | 0, hn => k1_pay3 (adjB V c ⟨0, hn⟩) (s1tB V c ⟨0, hn⟩)
  | n + 1, hn => k1_pay4 (adjB V c ⟨n + 1, hn⟩) (s1tB V c ⟨n + 1, hn⟩) (acc1 c n (Nat.lt_of_succ_lt hn))

theorem acc1_zero (c : Dev nD) (t : Fin cfg1.N) (hz : t.val = 0) :
    acc1 V c t.val t.isLt = k1_pay3 (adjB V c t) (s1tB V c t) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = k1_pay4 (adjB V c t) (s1tB V c t) (acc1 V c (t.val - 1) (Nat.lt_of_le_of_lt (Nat.sub_le _ _) t.isLt)) := by
  obtain ⟨n, hn⟩ := t
  cases n with
  | zero => exact absurd rfl hz
  | succ n => rfl

/-- The scratch accumulator, a whole scoped buffer of the kernel's own, passed beside the windows. -/
abbrev scM1 : Memref sig .tc .vmem S64x2048 .f32 := Memref.whole cc1_scratch0

/-- The region's invariant with the accumulator owned as `S` says: the other call's staging buffers at anything, the
    accumulator, the generator register at some state. -/
abbrev PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ S) ∗ (∃ r, prngReg c r))

/-- What the launch hands the region: the accumulator at anything. -/
theorem PhiA1_eq (c : Dev nD) :
    (Pipeline.ΦA spec1 c : sProp 𝕄) = PhiWith c iprop(∃ d, owns (c : Thread nD τ) scM1 fullShare d) := by
  unfold Pipeline.ΦA; rw [scopedRest1_eq]; simp only [scM1, owns_whole]; try rfl

/-- The region invariant before position `n`: before the first point the launch's (the accumulator at anything);
    afterwards the accumulator at what the point before left. -/
def Phi1 (c : Dev nD) : (n : ℕ) → n ≤ cfg1.N → sProp 𝕄
  | 0, _ => Pipeline.ΦA spec1 c
  | n + 1, hn => PhiWith c (owns (c : Thread nD τ) scM1 fullShare (acc1 V c n hn))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = PhiWith c (owns (c : Thread nD τ) scM1 fullShare (acc1 V c n hn)) := rfl

theorem Phi1_pos (c : Dev nD) (n : ℕ) (h : n ≤ cfg1.N) (hz : n ≠ 0) :
    Phi1 V c n h = PhiWith c (owns (c : Thread nD τ) scM1 fullShare (acc1 V c (n - 1) (by omega))) := by
  cases n with
  | zero => exact absurd rfl hz
  | succ n => rfl

/-- The proof data of the aggregation call on core `c`: the arrays as the region finds them (`V`); after the body at
    point `t` each input's buffer at its block, the top output's at `d1_t * (A_t · sup2)`, the bottom output's at
    `d2 * accᵀ` (written back at the last point only, where `acc` is the whole sum); the invariant carries the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (adjB V c t) (d1B V c t) (sup2B V c t)
    | ⟨6, _⟩ => k1_pay5 (d2B V c t) (acc1 V c t.val t.isLt)
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t) : (dat1 V c).owed t = 0 := rfl

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (adjB V c t) (d1B V c t) (sup2B V c t) := by dsimp only [dat1]
theorem after1_6 (c : Dev nD) (t : Fin cfg1.N) :
    (dat1 V c).after 6 t = k1_pay5 (d2B V c t) (acc1 V c t.val t.isLt) := by dsimp only [dat1]

example (c : Dev nD) : True := by
  have := (dat1 V c).share_full fun _ => rfl
  trivial

end Cert.KernelIdeal.Hand

end
-- ==== Proof.KI.Region1Runs.lean ====
import proofs.«107181_g11785390260513_cont_main3_35_5_alg».proof.Proof.Gen.KernelIdeal.Launch
import proofs.«107181_g11785390260513_cont_main3_35_5_alg».proof.Proof.Gen.KernelIdeal.Skeleton
import proofs.«107181_g11785390260513_cont_main3_35_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«107181_g11785390260513_cont_main3_35_5_alg».proof.Proof.KI.Region1Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 (the aggregation call): the body's branch conditions and its run, case by case

The body branches three times on the grid coordinate `i`: `i = 0` (the accumulator is set), `i > 0` (it is added
to), `i = 3` (the bottom output is stored). Over the four points that makes three cases: the first point, the two
middle points, the last point. -/

/-! ## The body's branch conditions -/

/-- The condition of the body's first `scf.if` (`i = 0`), from the grid coordinates. -/
abbrev cond1_0 (i : grid1.Coords) : Prop := (Scalar.cmpi .ne (Scalar.extui (Scalar.cmpi .eq (BitVec.ofNat 32 (i 0).val) 0#32)) 0#32) = 1#1
/-- It holds at the first point — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (`i > 0`, signed), from the grid coordinates. -/
abbrev cond1_1 (i : grid1.Coords) : Prop := (Scalar.cmpi .ne (Scalar.extui (Scalar.cmpi .sgt (BitVec.ofNat 32 (i 0).val) 0#32)) 0#32) = 1#1
/-- It holds at every point but the first — decided over the grid. -/
theorem hcond1_1 : ∀ t : Fin cfg1.N, cond1_1 (grid1.coords t) ↔ t.val % 4 ≠ 0 :=
  (by decide +kernel : ∀ t : Fin grid1.N, cond1_1 (grid1.coords t) ↔ t.val % 4 ≠ 0)

/-- The condition of the body's third `scf.if` (`i = 3`), from the grid coordinates. -/
abbrev cond1_2 (i : grid1.Coords) : Prop := k1_cond3 i = 1#1
/-- It holds at the last point — decided over the grid. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the third condition fails the bottom output is idle: nothing is stored into it, -/
theorem idleAt1_6 : ∀ t : Fin cfg1.N, ¬cond1_2 (grid1.coords t) → cfg1.idle 6 (grid1.coords t) = true := by decide +kernel
/-- and the pipeline does not write its block back. -/
theorem noFlush1_6 : ∀ t : Fin cfg1.N, ¬cond1_2 (grid1.coords t) → (cfg1.win 6).flush t = false := by decide +kernel
/-- Where it holds the bottom output is live. -/
theorem liveAt1_6 : ∀ t : Fin cfg1.N, cond1_2 (grid1.coords t) → cfg1.idle 6 (grid1.coords t) = false := by decide +kernel

/-! ## The staging memrefs at a point -/

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x64 .f32 := win1_6.stage (cfg1.slots t 6)
abbrev hs1_6 (t : Fin cfg1.N) : (ms1_6 t).IsWhole := hstage1_6 ((cfg1.slots t 6).cast nbuf1_6)

/-! ## A whole-buffer store leaves its payload -/

/-- The zero offsets of a rank-2 store, however spelt. -/
theorem hz2 : (![0, 0] : Fin 2 → ℕ) = fun _ => 0 := by
  funext a; fin_cases a <;> rfl

/-- A memref after ONE store through the whole-shape rectangle at zero offsets reads the store's payload, whatever it
    held before. -/
theorem read_whole_store {S : Shape} {e : EltTy} (m : Memref sig .tc .vmem S e)
    {off : Fin S.rank → ℕ} (hoff : off = fun _ => 0) (inb : ∀ a, off a + S.size a ≤ S.size a)
    (f : m.view.ty.Contents (Elt F)) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero hoff inb y⟩),
    View.canon_unit_zero hoff inb]

set_option maxHeartbeats 1000000 in
/-- THE BODY AT THE FIRST POINT (the first condition holds, the other two fail). On whole staging memrefs — the inputs'
    at their blocks, the top output's and the accumulator at anything, the bottom output's (idle here) at contents
    `xi6` handed back untouched — the body runs to the continuation holding the inputs as they were, the top output at
    `d1 * (A · sup2)`, the accumulator at the first product `sup1ᵀ · A`. -/
theorem kernelRun1_A (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : cond1_0 i) (hc1 : ¬cond1_1 i) (hc2 : ¬cond1_2 i)
    (x0 : Vec F S512x2048 .f32) (x1 : Vec F S64x512 .f32) (x2 : Vec F S2048x64 .f32) (x3 : Vec F S512x1 .f32) (x4 : Vec F S2048x1 .f32)
    (xi6 : Vec F S2048x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xi6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2) ∗ owns (c : Thread nD τ) arg7 fullShare xi6
            ∗ owns (c : Thread nD τ) arg8 fullShare (k1_pay3 x0 x1)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr; · ipureintro; exact harg7.read_unread _
    iexact H6
  iexists _; isplitr
  swap; · iexact HS
  ipureintro
  refine (read_whole_store _ hz2 _ _ _).trans ?_
  simp only [View.readAt_eq_ld, harg1.read_unread, harg2.read_unread,
    View.ld_unit_zero (S := S512x2048) hz2, View.ld_unit_zero (S := S64x512) hz2]

set_option maxHeartbeats 1000000 in
/-- THE BODY AT A MIDDLE POINT (only the second condition holds). The accumulator comes in at what the point before
    left, `xs`, and goes out with this point's product added; the bottom output is idle and handed back untouched. -/
theorem kernelRun1_B (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : ¬cond1_2 i)
    (x0 : Vec F S512x2048 .f32) (x1 : Vec F S64x512 .f32) (x2 : Vec F S2048x64 .f32) (x3 : Vec F S512x1 .f32) (x4 : Vec F S2048x1 .f32)
    (xi6 : Vec F S2048x64 .f32) (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xi6
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2) ∗ owns (c : Thread nD τ) arg7 fullShare xi6
            ∗ owns (c : Thread nD τ) arg8 fullShare (k1_pay4 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  obtain rfl := harg8.eq_unread hfs
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr; · ipureintro; exact harg7.read_unread _
    iexact H6
  iexists _; isplitr
  swap; · iexact HS
  ipureintro
  refine (read_whole_store _ hz2 _ _ _).trans ?_
  simp only [View.readAt_eq_ld, harg1.read_unread, harg2.read_unread, harg8.read_unread,
    View.ld_unit_zero (S := S512x2048) hz2, View.ld_unit_zero (S := S64x512) hz2, View.ld_unit_zero (S := S64x2048) hz2]

set_option maxHeartbeats 1000000 in
/-- THE BODY AT THE LAST POINT (the second and third conditions hold). The accumulator comes in at what the point
    before left, `xs`, and goes out with this point's product added; the bottom output, at anything before, is left at
    `d2` times the transposed accumulator just stored. -/
theorem kernelRun1_C (c : Dev nD) (i : grid1.Coords)
    (arg1 : Memref sig .tc .vmem S512x2048 .f32) (harg1 : arg1.IsWhole) (arg2 : Memref sig .tc .vmem S64x512 .f32) (harg2 : arg2.IsWhole)
    (arg3 : Memref sig .tc .vmem S2048x64 .f32) (harg3 : arg3.IsWhole) (arg4 : Memref sig .tc .vmem S512x1 .f32) (harg4 : arg4.IsWhole)
    (arg5 : Memref sig .tc .vmem S2048x1 .f32) (harg5 : arg5.IsWhole) (arg6 : Memref sig .tc .vmem S512x64 .f32) (harg6 : arg6.IsWhole)
    (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : cond1_2 i)
    (x0 : Vec F S512x2048 .f32) (x1 : Vec F S64x512 .f32) (x2 : Vec F S2048x64 .f32) (x3 : Vec F S512x1 .f32) (x4 : Vec F S2048x1 .f32)
    (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay1 x0 x3 x2)
            ∗ owns (c : Thread nD τ) arg7 fullShare (k1_pay5 x4 (k1_pay4 x0 x1 xs))
            ∗ owns (c : Thread nD τ) arg8 fullShare (k1_pay4 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_whole_store _ hz2 _ _ _).trans ?_
    simp only [View.readAt_eq_ld, harg1.read_unread, harg3.read_unread, harg4.read_unread,
      View.ld_unit_zero (S := S512x2048) hz2, View.ld_unit_zero (S := S2048x64) hz2, View.ld_unit_zero (S := S512x1) hz2]
  isplitl [H6]
  · iexists _; isplitr
    swap; · iexact H6
    ipureintro
    refine (read_whole_store _ hz2 _ _ _).trans ?_
    sl_unfold_words
    simp only [View.readAt_eq_ld, harg1.read_unread, harg2.read_unread, harg5.read_unread, harg8.read_unread,
      View.ld_unit_zero (S := S512x2048) hz2, View.ld_unit_zero (S := S64x512) hz2, View.ld_unit_zero (S := S64x2048) hz2,
      View.ld_unit_zero (S := S2048x1) hz2, View.readCov_unit_zero (S := S64x2048) _ hz2]
  iexists _; isplitr
  swap; · iexact HS
  ipureintro
  refine (read_whole_store _ hz2 _ _ _).trans ?_
  simp only [View.readAt_eq_ld, harg1.read_unread, harg2.read_unread, harg8.read_unread,
    View.ld_unit_zero (S := S512x2048) hz2, View.ld_unit_zero (S := S64x512) hz2, View.ld_unit_zero (S := S64x2048) hz2]

end Cert.KernelIdeal.Hand

end
-- ==== Proof.KI.Region1.lean ====
import proofs.«107181_g11785390260513_cont_main3_35_5_alg».proof.Proof.Gen.KernelIdeal.Launch
import proofs.«107181_g11785390260513_cont_main3_35_5_alg».proof.Proof.Gen.KernelIdeal.Skeleton
import proofs.«107181_g11785390260513_cont_main3_35_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«107181_g11785390260513_cont_main3_35_5_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 (the aggregation call): the body obligation

At every point the pipeline hands the body each input's staging buffer at its block and the outputs' at anything (the
bottom output's, where it is idle, to be handed back as found); the invariant hands it the accumulator at what the
point before left (at anything at the first point). The point's case of the run applies, and what it leaves is the
proof data's `after` and the next point's invariant. -/

/-! ## What the body finds in the inputs' buffers: their blocks, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the three conditions say which
    case the point is in; the invariant hands over the accumulator (at anything at the first point, at the partial sum
    afterwards) and takes it back at this point's partial sum; the bottom output is handed back as found at the first
    three points and left at `d2 * accᵀ` at the last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · -- the first point
    have hz : t.val = 0 := by omega
    have c0 : cond1_0 (grid1.coords t) := (hcond1_0 t).mpr h0
    have c1 : ¬cond1_1 (grid1.coords t) := fun h => (hcond1_1 t).mp h h0
    have c2 : ¬cond1_2 (grid1.coords t) := fun h => by have := (hcond1_2 t).mp h; omega
    rw [Dat.leavesExact_idle (dat1 V c) 6 t (idleAt1_6 t c2) (noFlush1_6 t c2)]
    rw [acc1_zero V c t hz]
    rw [Phi1_castSucc V c t, Phi1_zero V c _ _ hz, PhiA1_eq]
    iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRun1_A c (grid1.coords t) _ _ _ _ _ _ _ _ _ _ _ _ _ _ _ _ c0 c1 c2 (adjB V c t) (s1tB V c t) (sup2B V c t) (d1B V c t) (d2B V c t) ((dat1 V c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [A0 A1 A2 A3 A4 HS Hg]
    · isplitl [A0 A1 A2 A3 A4 HS]
      · isplitl [A0]; · iexact A0
        isplitl [A1]; · iexact A1
        isplitl [A2]; · iexact A2
        isplitl [A3]; · iexact A3
        isplitl [A4]; · iexact A4
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    have c0 : ¬cond1_0 (grid1.coords t) := fun h => h0 ((hcond1_0 t).mp h)
    have c1 : cond1_1 (grid1.coords t) := (hcond1_1 t).mpr h0
    rw [acc1_pos V c t hz]
    rw [Phi1_castSucc V c t, Phi1_pos V c _ _ hz]
    by_cases h2 : t.val % 4 = 3
    · -- the last point
      have c2 : cond1_2 (grid1.coords t) := (hcond1_2 t).mpr h2
      rw [show (dat1 V c).leavesExact 6 t = owns (c : Thread nD τ) (ms1_6 t) fullShare ((dat1 V c).after 6 t) from by
        unfold Dat.leavesExact; rw [liveAt1_6 t c2], after1_6]
      rw [acc1_pos V c t hz]
      iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ c0 c1 c2 (adjB V c t) (s1tB V c t) (sup2B V c t) (d1B V c t) (d2B V c t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [A0 A1 A2 A3 A4 HS Hg]
      · isplitl [A0 A1 A2 A3 A4 HS]
        · isplitl [A0]; · iexact A0
          isplitl [A1]; · iexact A1
          isplitl [A2]; · iexact A2
          isplitl [A3]; · iexact A3
          isplitl [A4]; · iexact A4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have c2 : ¬cond1_2 (grid1.coords t) := fun h => h2 ((hcond1_2 t).mp h)
      rw [Dat.leavesExact_idle (dat1 V c) 6 t (idleAt1_6 t c2) (noFlush1_6 t c2)]
      iintro ⟨⟨⟨A0, A1, A2, A3, A4, HS⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c (grid1.coords t) _ _ _ _ _ _ _ _ _ _ _ _ _ _ _ _ c0 c1 c2 (adjB V c t) (s1tB V c t) (sup2B V c t) (d1B V c t) (d2B V c t) ((dat1 V c).before 6 t d6) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, H5, H6, HS⟩
      isplitl [A0 A1 A2 A3 A4 HS Hg]
      · isplitl [A0 A1 A2 A3 A4 HS]
        · isplitl [A0]; · iexact A0
          isplitl [A1]; · iexact A1
          isplitl [A2]; · iexact A2
          isplitl [A3]; · iexact A3
          isplitl [A4]; · iexact A4
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (`ΦA`) is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives `ΦA` back: what the accumulator holds is forgotten. -/
theorem Phi_out1 (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨A0, A1, A2, A3, A4, HS⟩, Hg⟩
  isplitl [A0 A1 A2 A3 A4 HS]
  · isplitl [A0]; · iexact A0
    isplitl [A1]; · iexact A1
    isplitl [A2]; · iexact A2
    isplitl [A3]; · iexact A3
    isplitl [A4]; · iexact A4
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.KernelIdeal.Hand

end
-- ==== Proof.KI.Run.lean ====
/-
  The layer's program from the launch to the return: @main is a stretch of host operations, the support region,
  a second stretch, the aggregation region, and the closing concatenation. This module follows the contents of every
  unscoped buffer through those five items as a fold from the launch memory — a host stretch applies its operations,
  a region leaves in each of its windows' arrays what its write-backs add up to and every other buffer as it found
  it — and proves that every weakly fair execution terminates in a memory that holds, at every unscoped buffer, the
  fold's last valuation. The frame (the arguments end as launched) and the value of the result are both read off that.
-/
import proofs.«107181_g11785390260513_cont_main3_35_5_alg».proof.Proof.KI.Region0
import proofs.«107181_g11785390260513_cont_main3_35_5_alg».proof.Proof.KI.Region1
import proofs.«107181_g11785390260513_cont_main3_35_5_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items -/

/-- At launch. -/
abbrev W0 : Dev nD → Valuation τ sig (Elt F) := fun c b => m (c, b)
/-- After the first host stretch (the weights transposed, the bias as a row): the support region's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the support region's exit: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the support's second half, the two halves of the degrees as columns): the
    aggregation region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the aggregation region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the closing concatenation: the return. -/
abbrev W5 : Dev nD → Valuation τ sig (Elt F) := fun c => StableHlo.after hostOps2 (W4 m c)

/-! ## What a host stretch leaves alone -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-! ## The arguments end as launched

No host operation writes an argument; a region reads one through an input window (whose array ends as entered) or
does not touch it. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := (W4_arr m c 0).trans (((dat1 (E3 m) c).arrAt_in 0 rfl _).trans (A_eq1 (E3 m) c 0))
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data of both pipelines and the thread state -/

/-- Neither pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The support region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered from every unscoped buffer at `W3`, left at `W4`. Its invariant carries the
    accumulator scratch; it is made of the scoped rest at entry and gives the scoped rest back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- @main is the run of those segments. -/
theorem main_run (c : Dev nD) : main (F := F) c = Pipeline.Seg.run (segs m) := (main_chain c).trans (by chain_rfl)

set_option backward.isDefEq.respectTransparency.types false in
/-- From any memory with zero counters every weakly fair execution of @main terminates, nothing faulting, in a memory
    that holds the last valuation `W5` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Hand

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KI.Value0.lean ====
import proofs.«107181_g11785390260513_cont_main3_35_5_alg».proof.Proof.KI.Region0
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws

/-! # Region 0 at the ideal values: what the support kernel leaves in its two arrays

At the extended reals the first output buffer holds, at row `j` and column `h`,

    ∑ q, x (j, q) · Wt (q, h) + bias (0, h),

and the second, at row `h` and column `r` (`r` below 2048), the same sum at row `r`: the transpose of the top
2048 rows. The kernel has no grid, so its one point's block of every window is the whole array, and what the point
writes back is what each array holds after the region. -/

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## The two payloads at an index -/

/-- The zero offsets, as the constant function. -/
theorem hz2 : (![0, 0] : Fin 2 → Nat) = fun _ => 0 := funext fun a => by fin_cases a <;> rfl

/-- The printed dimension numbers are those of the plain 4096 × 128 by 128 × 64 product. -/
theorem dot_plain : dot_S4096x128_S128x64_S4096x64_1_0_0_1_n_n = DotDims.plain 4096 128 64 := rfl

/-- The first payload at `(j, h)`: the two same-shape casts are identities, the product into the zero array is the
    plain sum over the contracted axis, and the broadcast bias row reads its one row at column `h`. -/
theorem pay1_apply (x0 : FVec Ideal S4096x128 .f32) (x1 : FVec Ideal S128x64 .f32) (x2 : FVec Ideal S1x64 .f32)
    (j : Fin 4096) (h : Fin 64) :
    k0_pay1 (F := Ideal) x0 x1 x2 (ix2 j h) = (∑ q : Fin 128, x0 (ix2 j q) * x1 (ix2 q h)) + x2 (ix2 (0 : Fin 1) h) := by
  unfold k0_pay1
  rw [shapeCast_self, shapeCast_self, addf_apply, dot_plain, broadcastTo_1b_ab_apply]
  exact congrArg (· + x2 (ix2 (0 : Fin 1) h)) (Cert.LibDotPlain.matmul_zero_plain 4096 128 64 none x0 x1 j h)

/-- The second payload at `(h, r)`: the transpose reads the slice at `(r, h)`, and the slice of the top 2048 rows
    reads the first payload at the same row. -/
theorem pay2_apply (x0 : FVec Ideal S4096x128 .f32) (x1 : FVec Ideal S128x64 .f32) (x2 : FVec Ideal S1x64 .f32)
    (h : Fin 64) (r : Fin 2048) :
    k0_pay2 (F := Ideal) x0 x1 x2 (ix2 h r)
      = (∑ q : Fin 128, x0 (ix2 (⟨r.val, by omega⟩ : Fin 4096) q) * x1 (ix2 q h)) + x2 (ix2 (0 : Fin 1) h) := by
  unfold k0_pay2
  rw [transpose_ix2_apply]
  exact (slice2_axis0_apply 0 (k0_pay1 (F := Ideal) x0 x1 x2) slices_S4096x64_o0_0_S2048x64 r h
    (⟨r.val, by omega⟩ : Fin 4096) (Nat.zero_add _).symm).trans (pay1_apply x0 x1 x2 _ h)

/-! ## The two output buffers at an index -/

/-- The first output buffer, whole: one covering store at offset zero leaves its payload, of the loads through the
    whole-buffer rectangles, which read the contents. -/
theorem out0_3_eq (x0 : FVec Ideal S4096x128 .f32) (x1 : FVec Ideal S128x64 .f32) (x2 : FVec Ideal S1x64 .f32) :
    out0_3 (F := Ideal) x0 x1 x2 = k0_pay1 (F := Ideal) x0 x1 x2 := by
  unfold out0_3
  rw [View.canon_unit_zero hz2, View.ld_unit_zero (S := S4096x128) hz2, View.ld_unit_zero (S := S128x64) hz2,
    View.ld_unit_zero (S := S1x64) hz2]

/-- The second, likewise. -/
theorem out0_4_eq (x0 : FVec Ideal S4096x128 .f32) (x1 : FVec Ideal S128x64 .f32) (x2 : FVec Ideal S1x64 .f32) :
    out0_4 (F := Ideal) x0 x1 x2 = k0_pay2 (F := Ideal) x0 x1 x2 := by
  unfold out0_4
  rw [View.canon_unit_zero hz2, View.ld_unit_zero (S := S4096x128) hz2, View.ld_unit_zero (S := S128x64) hz2,
    View.ld_unit_zero (S := S1x64) hz2]

theorem out0_3_apply (x0 : FVec Ideal S4096x128 .f32) (x1 : FVec Ideal S128x64 .f32) (x2 : FVec Ideal S1x64 .f32)
    (j : Fin 4096) (h : Fin 64) :
    out0_3 (F := Ideal) x0 x1 x2 (ix2 j h) = (∑ q : Fin 128, x0 (ix2 j q) * x1 (ix2 q h)) + x2 (ix2 (0 : Fin 1) h) := by
  rw [out0_3_eq]; exact pay1_apply x0 x1 x2 j h

theorem out0_4_apply (x0 : FVec Ideal S4096x128 .f32) (x1 : FVec Ideal S128x64 .f32) (x2 : FVec Ideal S1x64 .f32)
    (h : Fin 64) (r : Fin 2048) :
    out0_4 (F := Ideal) x0 x1 x2 (ix2 h r)
      = (∑ q : Fin 128, x0 (ix2 (⟨r.val, by omega⟩ : Fin 4096) q) * x1 (ix2 q h)) + x2 (ix2 (0 : Fin 1) h) := by
  rw [out0_4_eq]; exact pay2_apply x0 x1 x2 h r

/-! ## From the one point's blocks to the arrays

The kernel has no grid: every window's block at its one point is the rectangle at offset `0 · size` of the array's own
sizes, so reading an array through the block reads the array, and every index of the array lies in the block. -/

variable (V : (c : Dev nD) → (b : Ref sig .tc) → Buf (Elt Ideal) ((c : Thread nD τ).loc b))

/-- Input window 0's block is its whole array. -/
theorem iblk0_0 (c : Dev nD) (t : Fin cfg0.N) : iblk0 V c 0 t = V c main_arg0 := by
  funext x
  show V c main_arg0 (((cfg0.win 0).blk t).view.emb x) = V c main_arg0 x
  congr 1
  funext a; apply Fin.ext
  show 0 * _ + 1 * (x a).val = (x a).val
  omega

/-- Input window 1's block is its whole array. -/
theorem iblk0_1 (c : Dev nD) (t : Fin cfg0.N) : iblk0 V c 1 t = V c main_v0 := by
  funext x
  show V c main_v0 (((cfg0.win 1).blk t).view.emb x) = V c main_v0 x
  congr 1
  funext a; apply Fin.ext
  show 0 * _ + 1 * (x a).val = (x a).val
  omega

/-- Input window 2's block is its whole array. -/
theorem iblk0_2 (c : Dev nD) (t : Fin cfg0.N) : iblk0 V c 2 t = V c main_v1 := by
  funext x
  show V c main_v1 (((cfg0.win 2).blk t).view.emb x) = V c main_v1 x
  congr 1
  funext a; apply Fin.ext
  show 0 * _ + 1 * (x a).val = (x a).val
  omega

/-- Reading a 4096 × 64 array through output window 3's block reads the array. -/
theorem read_blk3 (t : Fin cfg0.N) (G : S4096x64.Idx → Elt Ideal .f32) :
    ((cfg0.win 3).blk t).view.read (Elt Ideal) G = G := by
  funext x
  show G (((cfg0.win 3).blk t).view.emb x) = G x
  congr 1
  funext a; apply Fin.ext
  show 0 * _ + 1 * (x a).val = (x a).val
  omega

/-- Reading a 64 × 2048 array through output window 4's block reads the array. -/
theorem read_blk4 (t : Fin cfg0.N) (G : S64x2048.Idx → Elt Ideal .f32) :
    ((cfg0.win 4).blk t).view.read (Elt Ideal) G = G := by
  funext x
  show G (((cfg0.win 4).blk t).view.emb x) = G x
  congr 1
  funext a; apply Fin.ext
  show 0 * _ + 1 * (x a).val = (x a).val
  omega

/-- Every index of window 3's array is in the point's block. -/
theorem mem_blk3 (t : Fin cfg0.N) (i : S4096x64.Idx) : i ∈ ((cfg0.win 3).blk t).view.set := by
  show i ∈ ((View.whole main_v2_0).slice (win0_3.rect t)).set
  rw [View.set_slice_whole, Rect.mem_set_unit]
  intro a
  refine ⟨?_, ?_⟩
  · show 0 * _ ≤ (i a).val; omega
  · show (i a).val < 0 * _ + S4096x64.size a
    have := (i a).isLt; omega

/-- Every index of window 4's array is in the point's block. -/
theorem mem_blk4 (t : Fin cfg0.N) (i : S64x2048.Idx) : i ∈ ((cfg0.win 4).blk t).view.set := by
  show i ∈ ((View.whole main_v2_1).slice (win0_4.rect t)).set
  rw [View.set_slice_whole, Rect.mem_set_unit]
  intro a
  refine ⟨?_, ?_⟩
  · show 0 * _ ≤ (i a).val; omega
  · show (i a).val < 0 * _ + S64x2048.size a
    have := (i a).isLt; omega

/-- What the point writes back into window 3's array is the first output buffer of the three whole input arrays. -/
theorem flushed0_3 (c : Dev nD) (t : Fin cfg0.N) :
    (dat0 V c).flushed 3 t
      = ((cfg0.win 3).blk t).view.read (Elt Ideal) (out0_3 (F := Ideal) (V c main_arg0) (V c main_v0) (V c main_v1)) := by
  show (cfg0.win 3).cut (grid0.coords t) ((dat0 V c).after 3 t) = _
  rw [after0_3, iblk0_0, iblk0_1, iblk0_2, read_blk3]
  rfl

/-- What the point writes back into window 4's array is the second output buffer of the three whole input arrays. -/
theorem flushed0_4 (c : Dev nD) (t : Fin cfg0.N) :
    (dat0 V c).flushed 4 t
      = ((cfg0.win 4).blk t).view.read (Elt Ideal) (out0_4 (F := Ideal) (V c main_arg0) (V c main_v0) (V c main_v1)) := by
  show (cfg0.win 4).cut (grid0.coords t) ((dat0 V c).after 4 t) = _
  rw [after0_4, iblk0_0, iblk0_1, iblk0_2, read_blk4]
  rfl

/-- After the region, window 3's array (the 4096 × 64 sum) holds the first output buffer of the input arrays. -/
theorem arrAt0_3 (c : Dev nD) :
    (dat0 V c).arrAt 3 cfg0.N = out0_3 (F := Ideal) (V c main_arg0) (V c main_v0) (V c main_v1) :=
  (dat0 V c).arrAt_eq_of_cover 3 _ (fun t _ => flushed0_3 V c t) (fun i => ⟨t0_0, flush0_3 t0_0, mem_blk3 t0_0 i⟩)

/-- After the region, window 4's array (the 64 × 2048 transposed top half) holds the second output buffer. -/
theorem arrAt0_4 (c : Dev nD) :
    (dat0 V c).arrAt 4 cfg0.N = out0_4 (F := Ideal) (V c main_arg0) (V c main_v0) (V c main_v1) :=
  (dat0 V c).arrAt_eq_of_cover 4 _ (fun t _ => flushed0_4 V c t) (fun i => ⟨t0_0, flush0_4 t0_0, mem_blk4 t0_0 i⟩)

end Cert.KernelIdeal.HandValue

end
-- ==== Proof.KI.Value1Names.lean ====
import proofs.«107181_g11785390260513_cont_main3_35_5_alg».proof.Proof.KI.Region1Dat
import Idealize.ShloMosaic.Lib.ValueIdx
import Idealize.ShloMosaic.PureOps.Ideal

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

variable (V : (c : Dev nD) → (b : Ref sig .tc) → Buf (Elt Ideal) ((c : Thread nD τ).loc b))

/-! # The aggregation call's five input arrays, by name, as arrays of extended reals

The adjacency, `sup1ᵀ`, `sup2`, `d1` and `d2` as the call finds them, each at its literal shape, so that an entry of one
is an extended real and products and sums of entries are the extended reals'. -/

/-- The adjacency, 2048 × 2048. -/
abbrev inAdj (c : Dev nD) : FVec Ideal S2048x2048 .f32 := V c main_arg1
/-- The transposed first half of the support, 64 × 2048. -/
abbrev inSup1t (c : Dev nD) : FVec Ideal S64x2048 .f32 := V c main_v2_1
/-- The second half of the support, 2048 × 64. -/
abbrev inSup2 (c : Dev nD) : FVec Ideal S2048x64 .f32 := V c main_v3
/-- The first half of the degrees, a 2048 × 1 column. -/
abbrev inD1 (c : Dev nD) : FVec Ideal S2048x1 .f32 := V c main_v5
/-- The second half of the degrees, a 2048 × 1 column. -/
abbrev inD2 (c : Dev nD) : FVec Ideal S2048x1 .f32 := V c main_v7

/-- Row block `b`'s share of entry (h, j) of `sup1ᵀ · adj`: the 512 products whose contraction index lies in
    rows `512·b … 512·b + 511` of the adjacency. -/
def accPart (c : Dev nD) (h : Fin 64) (j : Fin 2048) (b : Fin 4) : EReal :=
  ∑ r : Fin 512, inSup1t V c (ix2 h (⟨512 * b.val + r.val, by omega⟩ : Fin 2048))
    * inAdj V c (ix2 (⟨512 * b.val + r.val, by omega⟩ : Fin 2048) j)

theorem accPart_def (c : Dev nD) (h : Fin 64) (j : Fin 2048) (b : Fin 4) :
    accPart V c h j b = ∑ r : Fin 512, inSup1t V c (ix2 h (⟨512 * b.val + r.val, by omega⟩ : Fin 2048))
      * inAdj V c (ix2 (⟨512 * b.val + r.val, by omega⟩ : Fin 2048) j) := rfl

end Cert.KernelIdeal.HandValue

end
-- ==== Proof.KI.Value1Pay.lean ====
import proofs.«107181_g11785390260513_cont_main3_35_5_alg».proof.Proof.KI.Region1Dat
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.ValueIdx Cert.KernelIdeal Cert.KernelIdeal.Gen Cert.KernelIdeal.Hand

/-! # The aggregation call's payloads read at one entry

Each value the body stores is read here at an entry given by its two coordinates, over arbitrary blocks of the
literal block shapes, at the ideal values:

* the top output's block is `d1 ⊙ (A · sup2)`: entry (p, h) is `d1 (p, 0) * ∑ j, A (p, j) * sup2 (j, h)`;
* the point's contribution to the accumulator is `sup1ᵀ · A`: entry (h, j) is `∑ r, sup1ᵀ (h, r) * A (r, j)`;
* the accumulator is that product at the first point and the previous accumulator plus that product afterwards;
* the bottom output is `d2 ⊙ accᵀ`: entry (j, h) is `d2 (j, 0) * acc (h, j)`.

No law of the extended reals is used: the sums are only renamed. -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two products' dimension numbers are the plain ones: rows by columns, no batch axis. -/
theorem dotTop_plain : dot_S512x2048_S2048x64_S512x64_1_0_0_1_n_n = DotDims.plain 512 2048 64 := rfl
theorem dotAcc_plain : dot_S64x512_S512x2048_S64x2048_1_0_0_1_n_n = DotDims.plain 64 512 2048 := rfl

/-- The top output's block at entry (p, h): the row's `d1` times the row of `A` against the column of `sup2`. -/
theorem k1_pay1_apply (v0 : Vec Ideal S512x2048 .f32) (v1 : Vec Ideal S512x1 .f32) (v3 : Vec Ideal S2048x64 .f32)
    (p : Fin 512) (h : Fin 64) :
    k1_pay1 v0 v1 v3 (ix2 p h) = v1 (ix2 p (0 : Fin 1)) * ∑ j : Fin 2048, v0 (ix2 p j) * v3 (ix2 j h) := by
  unfold k1_pay1
  simp only [shapeCast_self]
  refine (mulf_apply _ _ _).trans ?_
  refine congrArg₂ (· * ·) ?_ ?_
  · exact broadcastTo_a1_ab_apply v1 _ p h
  · rw [dotTop_plain]
    exact Cert.LibDotPlain.matmul_zero_plain 512 2048 64 none v0 v3 p h

/-- The point's product `sup1ᵀ · A` at entry (h, j). -/
theorem k1_pay2_apply (v0 : Vec Ideal S512x2048 .f32) (v9 : Vec Ideal S64x512 .f32) (h : Fin 64) (j : Fin 2048) :
    k1_pay2 v0 v9 (ix2 h j) = ∑ r : Fin 512, v9 (ix2 h r) * v0 (ix2 r j) := by
  unfold k1_pay2
  simp only [shapeCast_self]
  rw [dotAcc_plain]
  exact Cert.LibDotPlain.matmul_zero_plain 64 512 2048 none v9 v0 h j

/-- The accumulator after the first point is the first product. -/
theorem k1_pay3_apply (v0 : Vec Ideal S512x2048 .f32) (v9 : Vec Ideal S64x512 .f32) (h : Fin 64) (j : Fin 2048) :
    k1_pay3 v0 v9 (ix2 h j) = ∑ r : Fin 512, v9 (ix2 h r) * v0 (ix2 r j) := by
  unfold k1_pay3
  simp only [shapeCast_self]
  exact k1_pay2_apply v0 v9 h j

/-- The accumulator after a later point is what it held plus the point's product. -/
theorem k1_pay4_apply (v0 : Vec Ideal S512x2048 .f32) (v9 : Vec Ideal S64x512 .f32) (v21 : Vec Ideal S64x2048 .f32)
    (h : Fin 64) (j : Fin 2048) :
    k1_pay4 v0 v9 v21 (ix2 h j) = v21 (ix2 h j) + ∑ r : Fin 512, v9 (ix2 h r) * v0 (ix2 r j) := by
  unfold k1_pay4
  simp only [shapeCast_self]
  refine (addf_apply _ _ _).trans ?_
  exact congrArg (v21 (ix2 h j) + ·) (k1_pay2_apply v0 v9 h j)

/-- The bottom output at entry (j, h): the row's `d2` times the accumulator's transposed entry. -/
theorem k1_pay5_apply (v21 : Vec Ideal S2048x1 .f32) (v23 : Vec Ideal S64x2048 .f32) (j : Fin 2048) (h : Fin 64) :
    k1_pay5 v21 v23 (ix2 j h) = v21 (ix2 j (0 : Fin 1)) * v23 (ix2 h j) := by
  unfold k1_pay5
  simp only [shapeCast_self]
  refine (mulf_apply _ _ _).trans ?_
  refine congrArg₂ (· * ·) ?_ ?_
  · exact broadcastTo_a1_ab_apply v21 _ j h
  · exact transpose_ix2_apply v23 _ j h

end Cert.KernelIdeal.HandValue

end
-- ==== Proof.KI.Value1Blocks.lean ====
import proofs.«107181_g11785390260513_cont_main3_35_5_alg».proof.Proof.KI.Region1Dat
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! # The aggregation call's input blocks read off their arrays

At block `t` the call reads rows `512·t …` of the adjacency and of `d1`, columns `512·t …` of `sup1ᵀ`, and all of
`sup2` and `d2`. Each block is read here at one entry given by its coordinates, as the array's entry at the block's
offset plus the coordinate. -/

/-- The printed index maps over the four points: the adjacency, `d1` and the top output move along the rows with the
    point, `sup1ᵀ` along the columns; `sup2`, `d2` and the bottom output stay at block (0, 0). -/
theorem index_facts : ∀ t : Fin cfg1.N,
      win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

/-- The adjacency's block `t` at (p, j) is the adjacency at (512·t + p, j). -/
theorem adjB_apply (c : Dev nD) (t : Fin cfg1.N) (p : Fin 512) (j : Fin 2048) (i : Fin 2048) (hi : i.val = 512 * t.val + p.val) :
    adjB V c t (ix2 p j) = V c main_arg1 (ix2 i j) := by
  show V c main_arg1 (((cfg1.win 0).blk t).view.emb (ix2 p j)) = V c main_arg1 (ix2 i j)
  refine congrArg (V c main_arg1) ?_
  obtain ⟨e0, e1, -⟩ := index_facts t
  funext a; apply Fin.ext
  match a with
  | ⟨0, _⟩ => show win1_0.index t (0 : Fin 2) * 512 + 1 * p.val = i.val; omega
  | ⟨1, _⟩ => show win1_0.index t (1 : Fin 2) * 2048 + 1 * j.val = j.val; omega

/-- The block `t` of `sup1ᵀ` at (h, r) is `sup1ᵀ` at (h, 512·t + r). -/
theorem s1tB_apply (c : Dev nD) (t : Fin cfg1.N) (h : Fin 64) (r : Fin 512) (i : Fin 2048) (hi : i.val = 512 * t.val + r.val) :
    s1tB V c t (ix2 h r) = V c main_v2_1 (ix2 h i) := by
  show V c main_v2_1 (((cfg1.win 1).blk t).view.emb (ix2 h r)) = V c main_v2_1 (ix2 h i)
  refine congrArg (V c main_v2_1) ?_
  obtain ⟨-, -, e0, e1, -⟩ := index_facts t
  funext a; apply Fin.ext
  match a with
  | ⟨0, _⟩ => show win1_1.index t (0 : Fin 2) * 64 + 1 * h.val = h.val; omega
  | ⟨1, _⟩ => show win1_1.index t (1 : Fin 2) * 512 + 1 * r.val = i.val; omega

/-- The block of `sup2` is all of it. -/
theorem sup2B_apply (c : Dev nD) (t : Fin cfg1.N) (j : Fin 2048) (h : Fin 64) :
    sup2B V c t (ix2 j h) = V c main_v3 (ix2 j h) := by
  show V c main_v3 (((cfg1.win 2).blk t).view.emb (ix2 j h)) = V c main_v3 (ix2 j h)
  refine congrArg (V c main_v3) ?_
  obtain ⟨-, -, -, -, e0, e1, -⟩ := index_facts t
  funext a; apply Fin.ext
  match a with
  | ⟨0, _⟩ => show win1_2.index t (0 : Fin 2) * 2048 + 1 * j.val = j.val; omega
  | ⟨1, _⟩ => show win1_2.index t (1 : Fin 2) * 64 + 1 * h.val = h.val; omega

/-- The block `t` of `d1` at (p, 0) is `d1` at (512·t + p, 0). -/
theorem d1B_apply (c : Dev nD) (t : Fin cfg1.N) (p : Fin 512) (i : Fin 2048) (hi : i.val = 512 * t.val + p.val) :
    d1B V c t (ix2 p (0 : Fin 1)) = V c main_v5 (ix2 i (0 : Fin 1)) := by
  show V c main_v5 (((cfg1.win 3).blk t).view.emb (ix2 p (0 : Fin 1))) = V c main_v5 (ix2 i (0 : Fin 1))
  refine congrArg (V c main_v5) ?_
  obtain ⟨-, -, -, -, -, -, e0, e1, -⟩ := index_facts t
  funext a; apply Fin.ext
  match a with
  | ⟨0, _⟩ => show win1_3.index t (0 : Fin 2) * 512 + 1 * p.val = i.val; omega
  | ⟨1, _⟩ => show win1_3.index t (1 : Fin 2) * 1 + 1 * 0 = 0; omega

/-- The block of `d2` is all of it. -/
theorem d2B_apply (c : Dev nD) (t : Fin cfg1.N) (j : Fin 2048) :
    d2B V c t (ix2 j (0 : Fin 1)) = V c main_v7 (ix2 j (0 : Fin 1)) := by
  show V c main_v7 (((cfg1.win 4).blk t).view.emb (ix2 j (0 : Fin 1))) = V c main_v7 (ix2 j (0 : Fin 1))
  refine congrArg (V c main_v7) ?_
  obtain ⟨-, -, -, -, -, -, -, -, e0, e1, -⟩ := index_facts t
  funext a; apply Fin.ext
  match a with
  | ⟨0, _⟩ => show win1_4.index t (0 : Fin 2) * 2048 + 1 * j.val = j.val; omega
  | ⟨1, _⟩ => show win1_4.index t (1 : Fin 2) * 1 + 1 * 0 = 0; omega

end Cert.KernelIdeal.HandValue

end
-- ==== Proof.KI.Value1Top.lean ====
import proofs.«107181_g11785390260513_cont_main3_35_5_alg».proof.Proof.KI.Region1Dat
import proofs.«107181_g11785390260513_cont_main3_35_5_alg».proof.Proof.KI.Value1Names
import proofs.«107181_g11785390260513_cont_main3_35_5_alg».proof.Proof.KI.Value1Pay
import proofs.«107181_g11785390260513_cont_main3_35_5_alg».proof.Proof.KI.Value1Blocks
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! # The aggregation call's top output, entry by entry

The top output is written back at every point: point `t` writes rows `512·t … 512·t + 511`, each entry (p, h) of
its block being `d1 (512·t + p) * ∑ j, adj (512·t + p, j) * sup2 (j, h)`. That is the block of ONE whole-array
function — entry (i, h) is `d1 i * ∑ j, adj (i, j) * sup2 (j, h)` —, and the four blocks cover the 2048 rows, so the
array ends holding that function. -/

/-- The top output as one function of the call's input arrays: row `i`'s degree times row `i` of `adj · sup2`. -/
def top5 (c : Dev nD) : FVec Ideal S2048x64 .f32 :=
  fun y => inD1 V c (ix2 (y 0 : Fin 2048) (0 : Fin 1))
    * ∑ j : Fin 2048, inAdj V c (ix2 (y 0 : Fin 2048) j) * inSup2 V c (ix2 j (y 1 : Fin 64))

theorem top5_apply (c : Dev nD) (i : Fin 2048) (h : Fin 64) :
    top5 V c (ix2 i h) = inD1 V c (ix2 i (0 : Fin 1)) * ∑ j : Fin 2048, inAdj V c (ix2 i j) * inSup2 V c (ix2 j h) := rfl

/-- Entry (p, h) of the top output's block `t` sits at row `512·t + p`, column `h` of its array. -/
theorem blk5_emb (t : Fin cfg1.N) (p : Fin 512) (h : Fin 64) (i : Fin 2048) (hi : i.val = 512 * t.val + p.val) :
    ((cfg1.win 5).blk t).view.emb (ix2 p h) = (ix2 i h : S2048x64.Idx) := by
  obtain ⟨-, -, -, -, -, -, -, -, -, -, e0, e1, -⟩ := index_facts t
  funext a; apply Fin.ext
  match a with
  | ⟨0, _⟩ => show win1_5.index t (0 : Fin 2) * 512 + 1 * p.val = i.val; omega
  | ⟨1, _⟩ => show win1_5.index t (1 : Fin 2) * 64 + 1 * h.val = h.val; omega

/-- What point `t` writes back is block `t` of the whole-array function: the body's product and scaling read at an
    entry, each input block read as its array's entry at the block's offset. -/
theorem flushed5_eq (c : Dev nD) (t : Fin cfg1.N) :
    (dat1 V c).flushed 5 t = ((cfg1.win 5).blk t).view.read (Elt Ideal) (top5 V c) := by
  show (cfg1.win 5).cut (grid1.coords t) ((dat1 V c).after 5 t) = _
  rw [after1_5]
  funext y
  obtain ⟨p, h, rfl⟩ : ∃ (p : Fin 512) (h : Fin 64), y = ix2 p h := ⟨y 0, y 1, eq_ix2 y⟩
  have hN : t.val < 4 := lt_of_lt_of_eq t.isLt (show cfg1.N = 4 from N_1)
  have hi : ((⟨512 * t.val + p.val, by have := p.isLt; omega⟩ : Fin 2048)).val = 512 * t.val + p.val := rfl
  show k1_pay1 (adjB V c t) (d1B V c t) (sup2B V c t) (ix2 p h) = top5 V c (((cfg1.win 5).blk t).view.emb (ix2 p h))
  refine (k1_pay1_apply (adjB V c t) (d1B V c t) (sup2B V c t) p h).trans ?_
  refine Eq.trans ?_ (congrArg (top5 V c) (blk5_emb t p h _ hi).symm)
  refine Eq.trans ?_ (top5_apply V c _ h).symm
  exact congrArg₂ (· * ·) (d1B_apply V c t p _ hi)
    (Finset.sum_congr rfl fun j _ => congrArg₂ (· * ·) (adjB_apply V c t p j _ hi) (sup2B_apply V c t j h))

/-- The extents of what a write-back of the top output moves: the whole 512 × 64 block at every point. -/
theorem xsize5 : ∀ t : Fin cfg1.N, win1_5.xsize (grid1.coords t) (0 : Fin 2) = 512 ∧ win1_5.xsize (grid1.coords t) (1 : Fin 2) = 64 :=
  (by decide +kernel : ∀ t : Fin grid1.N, _)

/-- An entry of the top output's array is in point `t`'s block when its row is among `512·t … 512·t + 511`. -/
theorem mem_blk5 (t : Fin cfg1.N) (y : S2048x64.Idx) :
    y ∈ ((cfg1.win 5).blk t).view.set ↔ 512 * t.val ≤ (y 0 : ℕ) ∧ (y 0 : ℕ) < 512 * t.val + 512 := by
  show y ∈ ((View.whole main_v8_0).slice (win1_5.rect t)).set ↔ _
  rw [View.set_slice_whole, Rect.mem_set_unit]
  obtain ⟨-, -, -, -, -, -, -, -, -, -, e0, e1, -⟩ := index_facts t
  obtain ⟨x0, x1⟩ := xsize5 t
  have h1 : (y 1 : ℕ) < 64 := (y 1).isLt
  refine ⟨fun H => ?_, fun H a => ?_⟩
  · have H0 : win1_5.index t (0 : Fin 2) * 512 ≤ (y 0 : ℕ) ∧ (y 0 : ℕ) < win1_5.index t (0 : Fin 2) * 512 + win1_5.xsize (grid1.coords t) (0 : Fin 2) := H 0
    omega
  · match a with
    | ⟨0, _⟩ =>
      show win1_5.index t (0 : Fin 2) * 512 ≤ (y 0 : ℕ) ∧ (y 0 : ℕ) < win1_5.index t (0 : Fin 2) * 512 + win1_5.xsize (grid1.coords t) (0 : Fin 2)
      omega
    | ⟨1, _⟩ =>
      show win1_5.index t (1 : Fin 2) * 64 ≤ (y 1 : ℕ) ∧ (y 1 : ℕ) < win1_5.index t (1 : Fin 2) * 64 + win1_5.xsize (grid1.coords t) (1 : Fin 2)
      omega

/-- The four blocks cover the array: row `i` is in block `⌊i / 512⌋`, and every point writes its block back. -/
theorem cover5 (y : S2048x64.Idx) :
    ∃ t : Fin cfg1.N, (cfg1.win 5).flush t = true ∧ y ∈ ((cfg1.win 5).blk t).view.set := by
  have h0 : (y 0 : ℕ) < 2048 := (y 0).isLt
  have hN : cfg1.N = 4 := N_1
  refine ⟨⟨(y 0 : ℕ) / 512, by omega⟩, flush1_5 _, ?_⟩
  rw [mem_blk5]
  dsimp only
  omega

/-- So the top output's array ends holding the whole-array function. -/
theorem arrAt1_5_eq (c : Dev nD) : (dat1 V c).arrAt 5 cfg1.N = top5 V c :=
  (dat1 V c).arrAt_eq_of_cover 5 (top5 V c) (fun t _ => flushed5_eq V c t) cover5

/-- THE TOP OUTPUT, ENTRY BY ENTRY: after the call, entry (i, h) is `d1 i * ∑ j, adj (i, j) * sup2 (j, h)`. -/
theorem arrAt1_5_apply (c : Dev nD) (i : Fin 2048) (h : Fin 64) :
    ((dat1 V c).arrAt 5 cfg1.N : FVec Ideal S2048x64 .f32) (ix2 i h)
      = inD1 V c (ix2 i (0 : Fin 1)) * ∑ j : Fin 2048, inAdj V c (ix2 i j) * inSup2 V c (ix2 j h) :=
  (congrFun (arrAt1_5_eq V c) (ix2 i h)).trans (top5_apply V c i h)

end Cert.KernelIdeal.HandValue

end
-- ==== Proof.KI.Value1.lean ====
import proofs.«107181_g11785390260513_cont_main3_35_5_alg».proof.Proof.KI.Region1Dat
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.PureOps.Ideal.Laws
import proofs.«107181_g11785390260513_cont_main3_35_5_alg».proof.Proof.KI.Value1Names
import proofs.«107181_g11785390260513_cont_main3_35_5_alg».proof.Proof.KI.Value1Pay
import proofs.«107181_g11785390260513_cont_main3_35_5_alg».proof.Proof.KI.Value1Blocks

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! # What the aggregation call leaves in the bottom output

The scratch accumulator holds, after the point at row block `b`, the sum of the blocks' shares of `sup1ᵀ · adj` up to
`b`, added in the order of the points; the one write-back of the bottom output, after the last point, writes
`d2 ⊙ accᵀ` over the whole array. -/

/-! ## The accumulator -/

/-- The point's product `sup1ᵀ_t · A_t` at (h, j) is row block `t`'s share of `sup1ᵀ · adj` there. -/
theorem blockProduct_eq (c : Dev nD) (t : Fin cfg1.N) (b : Fin 4) (hb : t.val = b.val) (h : Fin 64) (j : Fin 2048) :
    ∑ r : Fin 512, s1tB V c t (ix2 h r) * adjB V c t (ix2 r j) = accPart V c h j b := by
  rw [accPart_def]
  refine Finset.sum_congr rfl fun r _ => ?_
  exact congrArg₂ (· * ·)
    (s1tB_apply V c t h r ⟨512 * b.val + r.val, by omega⟩ (by show 512 * b.val + r.val = 512 * t.val + r.val; omega))
    (adjB_apply V c t r j ⟨512 * b.val + r.val, by omega⟩ (by show 512 * b.val + r.val = 512 * t.val + r.val; omega))

/-- After the first point the accumulator is the first block's share. -/
theorem acc1_first (c : Dev nD) (hn : 0 < cfg1.N) (h : Fin 64) (j : Fin 2048) :
    acc1 V c 0 hn (ix2 h j) = accPart V c h j 0 := by
  show k1_pay3 (adjB V c ⟨0, hn⟩) (s1tB V c ⟨0, hn⟩) (ix2 h j) = _
  exact (k1_pay3_apply _ _ h j).trans (blockProduct_eq V c ⟨0, hn⟩ 0 rfl h j)

/-- After a later point it is what the point before left plus the point's block's share. -/
theorem acc1_next (c : Dev nD) (n : ℕ) (hn : n + 1 < cfg1.N) (b : Fin 4) (hb : n + 1 = b.val) (h : Fin 64) (j : Fin 2048) :
    acc1 V c (n + 1) hn (ix2 h j) = acc1 V c n (Nat.lt_of_succ_lt hn) (ix2 h j) + accPart V c h j b := by
  show k1_pay4 (adjB V c ⟨n + 1, hn⟩) (s1tB V c ⟨n + 1, hn⟩) (acc1 V c n (Nat.lt_of_succ_lt hn)) (ix2 h j) = _
  refine (k1_pay4_apply _ _ _ h j).trans ?_
  exact congrArg (acc1 V c n (Nat.lt_of_succ_lt hn) (ix2 h j) + ·) (blockProduct_eq V c ⟨n + 1, hn⟩ b hb h j)

/-- After the fourth point: the four shares, added in the points' order. -/
theorem acc1_fourth (c : Dev nD) (hn : 3 < cfg1.N) (h : Fin 64) (j : Fin 2048) :
    acc1 V c 3 hn (ix2 h j)
      = ((accPart V c h j 0 + accPart V c h j 1) + accPart V c h j 2) + accPart V c h j 3 := by
  refine (acc1_next V c 2 hn 3 rfl h j).trans ?_
  refine congrArg (· + accPart V c h j 3) ?_
  refine (acc1_next V c 1 _ 2 rfl h j).trans ?_
  refine congrArg (· + accPart V c h j 2) ?_
  refine (acc1_next V c 0 _ 1 rfl h j).trans ?_
  exact congrArg (· + accPart V c h j 1) (acc1_first V c _ h j)

/-- The same at the last point, named as a point of the grid. -/
theorem acc1_last (c : Dev nD) (t : Fin cfg1.N) (h3 : t.val = 3) (h : Fin 64) (j : Fin 2048) :
    acc1 V c t.val t.isLt (ix2 h j)
      = ((accPart V c h j 0 + accPart V c h j 1) + accPart V c h j 2) + accPart V c h j 3 := by
  obtain ⟨n, hn⟩ := t
  have h3' : n = 3 := h3
  subst h3'
  exact acc1_fourth V c hn h j

/-! ## The bottom output -/

/-- The bottom output after the run, as one function of the arrays the call found: at (j, h) the row's `d2` times the
    accumulated entry (h, j) of `sup1ᵀ · adj`. -/
def botResult (c : Dev nD) : FVec Ideal S2048x64 .f32 := fun i =>
  inD2 V c (ix2 (i 0) (0 : Fin 1))
    * (((accPart V c (i 1) (i 0) 0 + accPart V c (i 1) (i 0) 1) + accPart V c (i 1) (i 0) 2) + accPart V c (i 1) (i 0) 3)

/-- The one write-back, at the last point, writes that function's one block, the whole array. -/
theorem flushed6_eq (c : Dev nD) (t : Fin cfg1.N) (hf : (cfg1.win 6).flush t = true) :
    (dat1 V c).flushed 6 t = ((cfg1.win 6).blk t).view.read (Elt Ideal) (botResult V c) := by
  have hN : cfg1.N = 4 := N_1
  have h3 : t.val = 3 := by have := (flush1_6 t).mp hf; have := t.isLt; omega
  show (cfg1.win 6).cut (grid1.coords t) ((dat1 V c).after 6 t) = _
  rw [after1_6]
  funext y
  obtain ⟨j, h, rfl⟩ : ∃ (j : Fin 2048) (h : Fin 64), y = ix2 j h := ⟨y 0, y 1, eq_ix2 y⟩
  obtain ⟨-, -, -, -, -, -, -, -, -, -, -, -, e0, e1⟩ := index_facts t
  have hemb : ((cfg1.win 6).blk t).view.emb (ix2 j h) = ix2 j h := by
    funext a; apply Fin.ext
    match a with
    | ⟨0, _⟩ => show win1_6.index t (0 : Fin 2) * 2048 + 1 * j.val = j.val; omega
    | ⟨1, _⟩ => show win1_6.index t (1 : Fin 2) * 64 + 1 * h.val = h.val; omega
  show k1_pay5 (d2B V c t) (acc1 V c t.val t.isLt) (ix2 j h) = botResult V c (((cfg1.win 6).blk t).view.emb (ix2 j h))
  rw [hemb]
  refine (k1_pay5_apply _ _ j h).trans ?_
  exact congrArg₂ (· * ·) (d2B_apply V c t j) (acc1_last V c t h3 h j)

/-- An index of the bottom output is in point `t`'s block iff each coordinate is in the block's range on its axis. -/
theorem mem_blk6 (t : Fin cfg1.N) (i : S2048x64.Idx) :
    i ∈ ((cfg1.win 6).blk t).view.set ↔ ∀ a : Fin 2, win1_6.index t a * S2048x64.size a ≤ (i a).val ∧ (i a).val < win1_6.index t a * S2048x64.size a + S2048x64.size a := by
  show i ∈ ((View.whole main_v8_1).slice (win1_6.rect t)).set ↔ _
  rw [View.set_slice_whole, Rect.mem_set_unit]
  exact Iff.rfl

/-- So the bottom output ends holding that function: the last point's block covers it. -/
theorem arr6_final (c : Dev nD) : (dat1 V c).arrAt 6 cfg1.N = botResult V c :=
  (dat1 V c).arrAt_eq_of_cover 6 (botResult V c) (flushed6_eq V c) fun i =>
    ⟨t1_3, (flush1_6 t1_3).mpr rfl, by
      rw [mem_blk6]
      obtain ⟨-, -, -, -, -, -, -, -, -, -, -, -, e0, e1⟩ := index_facts t1_3
      have h0 : (i 0).val < 2048 := idx2_lt0 i
      have h1 : (i 1).val < 64 := idx2_lt1 i
      intro a
      match a with
      | ⟨0, _⟩ => show win1_6.index t1_3 (0 : Fin 2) * 2048 ≤ (i 0).val ∧ (i 0).val < win1_6.index t1_3 (0 : Fin 2) * 2048 + 2048; omega
      | ⟨1, _⟩ => show win1_6.index t1_3 (1 : Fin 2) * 64 ≤ (i 1).val ∧ (i 1).val < win1_6.index t1_3 (1 : Fin 2) * 64 + 64; omega⟩

/-- THE BOTTOM OUTPUT AT AN ENTRY: (j, h) holds `d2 (j, 0)` times the four row blocks' shares of entry (h, j) of
    `sup1ᵀ · adj`, added in the order the accumulator added them. -/
theorem arrAt1_6_apply (c : Dev nD) (j : Fin 2048) (h : Fin 64) :
    ((dat1 V c).arrAt 6 cfg1.N : FVec Ideal S2048x64 .f32) (ix2 j h)
      = inD2 V c (ix2 j (0 : Fin 1))
        * (((accPart V c h j 0 + accPart V c h j 1) + accPart V c h j 2) + accPart V c h j 3) :=
  congrFun (arr6_final V c) (ix2 j h)

end Cert.KernelIdeal.HandValue

end
-- ==== Proof.Spec.lean ====
/-
  The two readings of the layer's result, index by index over the extended reals, as functions of the five argument
  arrays: the node features x (4096 × 128), the bipartite adjacency block adj (2048 × 2048), the degrees d (4096), the
  weights W (64 × 128) and the bias b (64).

  Both start from the support  sup(j, h) = (Σ_q x(j, q) · W(h, q)) + b(h).

  The streamed reading: rows 0..2047 of the result are  d(i) · Σ_j adj(i, j) · sup(2048 + j, h);  rows 2048..4095 are
  d(2048 + j) · acc(h, j),  where acc adds, in order, the four contributions of the 512-row blocks of adj,
  contribution(blk)(h, j) = Σ_r sup(512·blk + r, h) · adj(512·blk + r, j).

  The dense reading: the result is  Σ_j (Σ_k D(i, k) · A(k, j)) · sup(j, h)  with D the diagonal matrix of d and A the
  4096 × 4096 symmetric block matrix [[0, adj], [adjᵀ, 0]].

  This module only states them; that they agree on finite inputs is proved in the algebra module.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![4096, 128]⟩
abbrev SAdj : Shape := ⟨2, ![2048, 2048]⟩
abbrev SD : Shape := ⟨1, ![4096]⟩
abbrev SW : Shape := ⟨2, ![64, 128]⟩
abbrev SB : Shape := ⟨1, ![64]⟩
abbrev SOut : Shape := ⟨2, ![4096, 64]⟩

variable (x : FVec Ideal SX .f32) (adj : FVec Ideal SAdj .f32) (d : FVec Ideal SD .f32)
  (W : FVec Ideal SW .f32) (b : FVec Ideal SB .f32)

/-- The support: node j's features times the weights' row h, plus the bias. -/
def sup (j : Fin 4096) (h : Fin 64) : EReal := (∑ q : Fin 128, x (ix2 j q) * W (ix2 h q)) + b (ix1 h)

/-- A node of the first part as a node of the whole graph. -/
def lo (i : Fin 2048) : Fin 4096 := ⟨i.val, by omega⟩
/-- A node of the second part as a node of the whole graph. -/
def hi (i : Fin 2048) : Fin 4096 := ⟨2048 + i.val, by omega⟩

/-- Row r of the blk-th block of 512 rows of adj. -/
def row (blk : Fin 4) (r : Fin 512) : Fin 2048 := ⟨512 * blk.val + r.val, by omega⟩

/-- Rows of the first part: the degree times adj's row against the second part's support. -/
def top (i : Fin 2048) (h : Fin 64) : EReal :=
  d (ix1 (lo i)) * ∑ j : Fin 2048, adj (ix2 i j) * sup x W b (hi j) h

/-- One block of rows of adj against the first part's support, transposed: entry (h, j). -/
def contrib (blk : Fin 4) (h : Fin 64) (j : Fin 2048) : EReal :=
  ∑ r : Fin 512, sup x W b (lo (row blk r)) h * adj (ix2 (row blk r) j)

/-- The four blocks' contributions added in the order the blocks are streamed. -/
def acc (h : Fin 64) (j : Fin 2048) : EReal :=
  ((contrib x adj W b 0 h j + contrib x adj W b 1 h j) + contrib x adj W b 2 h j) + contrib x adj W b 3 h j

/-- Rows of the second part: the degree times the accumulated transposed product. -/
def bot (j : Fin 2048) (h : Fin 64) : EReal := d (ix1 (hi j)) * acc x adj W b h j

/-- The streamed reading at row i, column h. -/
def kAt (i : Fin 4096) (h : Fin 64) : EReal :=
  if hlt : i.val < 2048 then top x adj d W b ⟨i.val, hlt⟩ h
  else bot x adj d W b ⟨i.val - 2048, by omega⟩ h

/-- The diagonal matrix of the degrees. -/
def diagE (i k : Fin 4096) : EReal := if i = k then d (ix1 i) else 0

/-- The symmetric block matrix [[0, adj], [adjᵀ, 0]]. -/
def adjF (k j : Fin 4096) : EReal :=
  if hk : k.val < 2048 then
    (if hj : j.val < 2048 then 0 else adj (ix2 ⟨k.val, hk⟩ ⟨j.val - 2048, by omega⟩))
  else
    (if hj : j.val < 2048 then adj (ix2 ⟨j.val, hj⟩ ⟨k.val - 2048, by omega⟩) else 0)

/-- The dense reading at row i, column h. -/
def rAt (i : Fin 4096) (h : Fin 64) : EReal :=
  ∑ j : Fin 4096, (∑ k : Fin 4096, diagE d i k * adjF adj k j) * sup x W b j h

/-- Every entry of an array is a real number. -/
def Finite {s : Shape} (v : FVec Ideal s .f32) : Prop := ∀ i, ∃ r : ℝ, v i = (r : EReal)

end Cert.Spec

end
-- ==== Proof.KI.ValueMain.lean ====
/-
  The value of the layer's result at the ideal values, index by index.

  The launch module follows the contents of every unscoped buffer through @main's five items as a fold from the launch
  memory. This module reads that fold at the result: the first host stretch hands the support region the features, the
  weights transposed and the bias as a row; the region leaves the support sup(j, h) = Σ_q x(j, q) · W(h, q) + b(h) in its
  first array and the transpose of the support's first 2048 rows in its second; the second host stretch cuts out the
  support's second half and turns each half of the degrees into a column; the aggregation region leaves, in its first
  array, d(i) · Σ_j adj(i, j) · sup(2048 + j, h) and, in its second, d(2048 + j) times the four row blocks'
  contributions Σ_r sup(512·blk + r, h) · adj(512·blk + r, j) added in the order the blocks are streamed; the closing
  concatenation stacks the two. Row i of the result is therefore the streamed reading of the specification: its first
  case below row 2048, its second from there on.
-/
import proofs.«107181_g11785390260513_cont_main3_35_5_alg».proof.Proof.KI.Run
import proofs.«107181_g11785390260513_cont_main3_35_5_alg».proof.Proof.KI.Value0
import proofs.«107181_g11785390260513_cont_main3_35_5_alg».proof.Proof.KI.Value1Top
import proofs.«107181_g11785390260513_cont_main3_35_5_alg».proof.Proof.KI.Value1
import proofs.«107181_g11785390260513_cont_main3_35_5_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.HandValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (m : (ℓ : Loc nD τ sig) → Buf (Elt Ideal) ℓ) (c : Dev nD)

/-! ## The five arguments, as the specification types them -/

/-- The node features as launched. -/
abbrev argX : FVec Ideal Cert.Spec.SX .f32 := m ((c : Thread nD τ).loc main_arg0)
/-- The adjacency block as launched. -/
abbrev argAdj : FVec Ideal Cert.Spec.SAdj .f32 := m ((c : Thread nD τ).loc main_arg1)
/-- The degrees as launched. -/
abbrev argD : FVec Ideal Cert.Spec.SD .f32 := m ((c : Thread nD τ).loc main_arg2)
/-- The weights as launched. -/
abbrev argW : FVec Ideal Cert.Spec.SW .f32 := m ((c : Thread nD τ).loc main_arg3)
/-- The bias as launched. -/
abbrev argB : FVec Ideal Cert.Spec.SB .f32 := m ((c : Thread nD τ).loc main_arg4)

/-! ## Stage 1: what the support region finds

The first host stretch transposes the weights and turns the bias into a row; the features are not written. -/

/-- The transposed weights: entry (q, h) is the weights' entry (h, q). -/
theorem E1_v0_apply (q : Fin 128) (h : Fin 64) :
    (E1 m c main_v0 : S128x64.Idx → EReal) (ix2 q h) = argW m c (ix2 h q) := by
  have e : (E1 m c main_v0 : S128x64.Idx → EReal)
      = transpose S128x64 [1, 0] (argW m c) transposes_S64x128_S128x64_1_0 := by
    show StableHlo.after hostOps0 (fun b => m (c, b)) (Proc.devRef .tc main_v0) = _
    after_results
  rw [e]; exact transpose_ix2_apply _ _ q h

/-- The bias as a row: entry (0, h) is the bias's entry h. -/
theorem E1_v1_apply (u : Fin 1) (h : Fin 64) :
    (E1 m c main_v1 : S1x64.Idx → EReal) (ix2 u h) = argB m c (ix1 h) := by
  have e : (E1 m c main_v1 : S1x64.Idx → EReal) = shapeCast S1x64 (argB m c) shapeCasts_S64_S1x64 := by
    show StableHlo.after hostOps0 (fun b => m (c, b)) (Proc.devRef .tc main_v1) = _
    after_results; rfl
  rw [e]; exact shapeCast_a_1a_apply _ _ u h

/-- The features reach the region as launched. -/
theorem E1_arg0 : (E1 m c main_arg0 : S4096x128.Idx → EReal) = argX m c :=
  W1_of m c main_arg0 (by decide)

/-! ## Stage 2: what the support region leaves

Its first output is the support; its second is the transpose of the support's first 2048 rows. -/

/-- The support region's first output at (j, h) is the support of node j at column h. -/
theorem W2_v2_0_apply (j : Fin 4096) (h : Fin 64) :
    (W2 m c (Proc.devRef .tc main_v2_0) : S4096x64.Idx → EReal) (ix2 j h)
      = Cert.Spec.sup (argX m c) (argW m c) (argB m c) j h := by
  have e : (W2 m c (Proc.devRef .tc main_v2_0) : S4096x64.Idx → EReal)
      = out0_3 (E1 m c main_arg0) (E1 m c main_v0) (E1 m c main_v1) :=
    (W2_arr m c 3).trans (arrAt0_3 (E1 m) c)
  rw [e, out0_3_apply, E1_arg0, E1_v1_apply]
  unfold Cert.Spec.sup
  congr 1
  exact Finset.sum_congr rfl fun q _ => by rw [E1_v0_apply]

/-- The support region's second output at (h, r) is the support of node r (of the first part) at column h. -/
theorem W2_v2_1_apply (h : Fin 64) (r : Fin 2048) :
    (W2 m c (Proc.devRef .tc main_v2_1) : S64x2048.Idx → EReal) (ix2 h r)
      = Cert.Spec.sup (argX m c) (argW m c) (argB m c) (Cert.Spec.lo r) h := by
  have e : (W2 m c (Proc.devRef .tc main_v2_1) : S64x2048.Idx → EReal)
      = out0_4 (E1 m c main_arg0) (E1 m c main_v0) (E1 m c main_v1) :=
    (W2_arr m c 4).trans (arrAt0_4 (E1 m) c)
  rw [e, out0_4_apply, E1_arg0, E1_v1_apply]
  unfold Cert.Spec.sup Cert.Spec.lo
  congr 1
  exact Finset.sum_congr rfl fun q _ => by rw [E1_v0_apply]

/-! ## Stage 3: what the aggregation region finds

The second host stretch cuts the support's second half out of the support region's first output and turns each half of
the degrees into a column; the adjacency and the transposed first half of the support are not written. -/

/-- The support's second half: entry (j, h) is the support of node 2048 + j at column h. -/
theorem E3_v3_apply (j : Fin 2048) (h : Fin 64) :
    (E3 m c main_v3 : S2048x64.Idx → EReal) (ix2 j h)
      = Cert.Spec.sup (argX m c) (argW m c) (argB m c) (Cert.Spec.hi j) h := by
  have e : (E3 m c main_v3 : S2048x64.Idx → EReal)
      = extractStridedSlice S2048x64 ![2048, 0] (W2 m c (Proc.devRef .tc main_v2_0) : S4096x64.Idx → EReal)
          slices_S4096x64_S2048x64_2048_0 := by
    show StableHlo.after hostOps1 (W2 m c) (Proc.devRef .tc main_v3) = _
    after_results
  rw [e]
  refine (slice2_axis0_apply 2048 _ _ j h (Cert.Spec.hi j) rfl).trans ?_
  exact W2_v2_0_apply m c _ h

/-- The degrees reach the second host stretch as launched: neither the first stretch nor the support region writes them. -/
theorem W2_arg2 : (W2 m c (Proc.devRef .tc main_arg2) : S4096.Idx → EReal) = argD m c :=
  (W2_of_ne m c main_arg2 (by decide)).trans (W1_of m c main_arg2 (by decide))

/-- A vector of 2048 entries as a column reads, at (i, 0), the vector at i. -/
theorem column_apply (v : FVec Ideal S2048 .f32) (i : Fin 2048) (u : Fin 1) :
    shapeCast S2048x1 v shapeCasts_S2048_S2048x1 (ix2 i u) = v (ix1 i) :=
  shapeCast_apply v _ (ix2 i u) (ix1 i) (by
    rw [Shape.rowMajor_val_one, Shape.rowMajor_val_two]
    show i.val = i.val * 1 + u.val
    omega)

/-- The first half of the degrees as a column: entry (i, 0) is the degree of node i. -/
theorem E3_v5_apply (i : Fin 2048) (u : Fin 1) :
    (E3 m c main_v5 : S2048x1.Idx → EReal) (ix2 i u) = argD m c (ix1 (Cert.Spec.lo i)) := by
  have e : (E3 m c main_v5 : S2048x1.Idx → EReal)
      = shapeCast S2048x1 (extractStridedSlice S2048 ![0] (W2 m c (Proc.devRef .tc main_arg2) : S4096.Idx → EReal)
          slices_S4096_S2048_0) shapeCasts_S2048_S2048x1 := by
    show StableHlo.after hostOps1 (W2 m c) (Proc.devRef .tc main_v5) = _
    after_results; rfl
  rw [e, W2_arg2, column_apply]
  exact extractStridedSlice_apply _ _ _ (ix1 i) (ix1 (Cert.Spec.lo i)) fun a => by
    match a with
    | ⟨0, _⟩ => exact (Nat.zero_add _).symm

/-- The second half of the degrees as a column: entry (j, 0) is the degree of node 2048 + j. -/
theorem E3_v7_apply (j : Fin 2048) (u : Fin 1) :
    (E3 m c main_v7 : S2048x1.Idx → EReal) (ix2 j u) = argD m c (ix1 (Cert.Spec.hi j)) := by
  have e : (E3 m c main_v7 : S2048x1.Idx → EReal)
      = shapeCast S2048x1 (extractStridedSlice S2048 ![2048] (W2 m c (Proc.devRef .tc main_arg2) : S4096.Idx → EReal)
          slices_S4096_S2048_2048) shapeCasts_S2048_S2048x1 := by
    show StableHlo.after hostOps1 (W2 m c) (Proc.devRef .tc main_v7) = _
    after_results; rfl
  rw [e, W2_arg2, column_apply]
  exact extractStridedSlice_apply _ _ _ (ix1 j) (ix1 (Cert.Spec.hi j)) fun a => by
    match a with
    | ⟨0, _⟩ => rfl

/-- The adjacency reaches the aggregation region as launched. -/
theorem E3_arg1 : (E3 m c main_arg1 : S2048x2048.Idx → EReal) = argAdj m c :=
  (W3_of m c main_arg1 (by decide)).trans
    ((W2_of_ne m c main_arg1 (by decide)).trans (W1_of m c main_arg1 (by decide)))

/-- The transposed first half of the support reaches the aggregation region as the support region left it. -/
theorem E3_v2_1 : (E3 m c main_v2_1 : S64x2048.Idx → EReal) = W2 m c (Proc.devRef .tc main_v2_1) :=
  W3_of m c main_v2_1 (by decide)

/-! ## Stage 4: what the aggregation region leaves -/

/-- Its first output at (i, h) is the streamed reading's row i of the first part. -/
theorem W4_v8_0_apply (i : Fin 2048) (h : Fin 64) :
    (W4 m c (Proc.devRef .tc main_v8_0) : S2048x64.Idx → EReal) (ix2 i h)
      = Cert.Spec.top (argX m c) (argAdj m c) (argD m c) (argW m c) (argB m c) i h := by
  have e : (W4 m c (Proc.devRef .tc main_v8_0) : S2048x64.Idx → EReal) = (dat1 (E3 m) c).arrAt 5 cfg1.N := W4_arr m c 5
  rw [e, arrAt1_5_apply]
  unfold Cert.Spec.top
  dsimp only [inD1, inAdj, inSup2]
  rw [E3_v5_apply, E3_arg1]
  congr 1
  exact Finset.sum_congr rfl fun j _ => by rw [E3_v3_apply]

/-- One block of rows' share of the accumulator is the specification's contribution of that block. -/
theorem accPart_eq (h : Fin 64) (j : Fin 2048) (b : Fin 4) :
    accPart (E3 m) c h j b = Cert.Spec.contrib (argX m c) (argAdj m c) (argW m c) (argB m c) b h j := by
  rw [accPart_def]
  unfold Cert.Spec.contrib
  refine Finset.sum_congr rfl fun r _ => ?_
  dsimp only [inSup1t, inAdj]
  rw [E3_v2_1, W2_v2_1_apply, E3_arg1]
  rfl

/-- Its second output at (j, h) is the streamed reading's row j of the second part. -/
theorem W4_v8_1_apply (j : Fin 2048) (h : Fin 64) :
    (W4 m c (Proc.devRef .tc main_v8_1) : S2048x64.Idx → EReal) (ix2 j h)
      = Cert.Spec.bot (argX m c) (argAdj m c) (argD m c) (argW m c) (argB m c) j h := by
  have e : (W4 m c (Proc.devRef .tc main_v8_1) : S2048x64.Idx → EReal) = (dat1 (E3 m) c).arrAt 6 cfg1.N := W4_arr m c 6
  rw [e, arrAt1_6_apply, accPart_eq, accPart_eq, accPart_eq, accPart_eq]
  unfold Cert.Spec.bot Cert.Spec.acc
  dsimp only [inD2]
  rw [E3_v7_apply]

/-! ## Stage 5: the result

The closing host operation stacks the aggregation region's two outputs: rows below 2048 read the first, the others the
second, 2048 rows up — the streamed reading's own case split. -/

/-- THE RESULT at row i, column h is the streamed reading of the five arguments as launched. -/
theorem result_apply (i : Fin 4096) (h : Fin 64) :
    (W5 m c (Proc.devRef .tc main_v9) : S4096x64.Idx → EReal) (ix2 i h)
      = Cert.Spec.kAt (m ((c : Thread nD τ).loc main_arg0)) (m ((c : Thread nD τ).loc main_arg1))
          (m ((c : Thread nD τ).loc main_arg2)) (m ((c : Thread nD τ).loc main_arg3))
          (m ((c : Thread nD τ).loc main_arg4)) i h := by
  have e : (W5 m c (Proc.devRef .tc main_v9) : S4096x64.Idx → EReal)
      = concatenate S4096x64 0 [⟨S2048x64, (W4 m c (Proc.devRef .tc main_v8_0) : S2048x64.Idx → EReal)⟩,
          ⟨S2048x64, (W4 m c (Proc.devRef .tc main_v8_1) : S2048x64.Idx → EReal)⟩]
          concatenates_S2048x64_S2048x64_S4096x64_d0 := by
    show StableHlo.after hostOps2 (W4 m c) (Proc.devRef .tc main_v9) = _
    after_results
  rw [e]
  unfold Cert.Spec.kAt
  by_cases hlt : i.val < 2048
  · rw [dif_pos hlt]
    refine (concatenate_pair_apply_left (t := S4096x64) (s₁ := S2048x64) (s₂ := S2048x64) (0 : Fin 2) _ _ _ (ix2 i h)
      (rfl : S2048x64.rank = S4096x64.rank) (ix2 (⟨i.val, hlt⟩ : Fin 2048) h) fun b => ?_).trans ?_
    · match b with
      | ⟨0, _⟩ => rfl
      | ⟨1, _⟩ => rfl
    · exact W4_v8_0_apply m c _ h
  · rw [dif_neg hlt]
    refine (concatenate_pair_apply_right (t := S4096x64) (s₁ := S2048x64) (s₂ := S2048x64) (0 : Fin 2) _ _ _ (ix2 i h)
      (rfl : S2048x64.rank = S4096x64.rank) (rfl : S2048x64.rank = S4096x64.rank)
      (ix2 (⟨i.val - 2048, by omega⟩ : Fin 2048) h) (fun b hb => ?_) ?_).trans ?_
    · match b with
      | ⟨0, _⟩ => exact absurd rfl hb
      | ⟨1, _⟩ => rfl
    · show i.val - 2048 + 2048 = i.val
      omega
    · exact W4_v8_1_apply m c _ h

end Cert.KernelIdeal.HandValue

end
-- ==== Proof.Ref.RefTerm.lean ====
/-
  The reference's result as ONE pure term of its five argument arrays.

  The reference is a graph-convolution layer on a bipartite graph with 2048 + 2048 nodes:
  with D = diag(d) the 4096 x 4096 degree matrix, A = [[0, adj], [adjᵀ, 0]] the 4096 x 4096
  symmetric adjacency built from the 2048 x 2048 block adj, and H = x · Wᵀ + b the 4096 x 64
  feature matrix, the result is (D · A) · H.

  Each of the four pieces below is the composition of exactly the host operations the printed
  program applies to produce that value, spelt with the program's own shape records and side
  conditions, so that the program's run, composed, is `refOut` up to unfolding these four names.
-/
import proofs.«107181_g11785390260513_cont_main3_35_5_alg».proof.ReferenceIdeal

noncomputable section

namespace Cert.ReferenceIdeal.Hand

open Idealize.ShloMosaic Cert.ReferenceIdeal

variable {F : FTy → Type} [FloatOps F] [Cert.ReferenceIdeal.Facts]
open Facts₀ Facts

/-- diag(d): the 4096 x 4096 matrix with d on the diagonal and zero elsewhere. Entry (i, j) is
    selected by the mask "row number + 0 = column number" (two iotas, the zero offset added to the
    first, compared for equality): where it holds the entry is d i — d padded by nothing, spread
    along a new unit column axis and then along the columns — and elsewhere it is the zero
    constant spread over the whole matrix. -/
def diagOf (d : FVec F S4096 .f32) : FVec F S4096x4096 .f32 :=
  select
    (cmpi .eq
      (addi (iotaInDim S4096x4096 32 0)
        (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] d (constant (F := F) S_ .f32 0x00000000#32) pads_S4096_S4096_000 h_S_)))
    (broadcastInDim S4096x4096 ![] bcast_S_S4096x4096 (constant (F := F) S_ .f32 0x00000000#32))

/-- The symmetric adjacency [[0, adj], [adjᵀ, 0]]: the top half is a zero block beside adj, the
    bottom half adj transposed beside a zero block, and the two halves are stacked. -/
def adjFull (adj : FVec F S2048x2048 .f32) : FVec F S4096x4096 .f32 :=
  concatenate S4096x4096 0
    [⟨S2048x4096, concatenate S2048x4096 1
        [⟨S2048x2048, broadcastInDim S2048x2048 ![] bcast_S_S2048x2048 (constant (F := F) S_ .f32 0x00000000#32)⟩,
         ⟨S2048x2048, adj⟩]
        concatenates_S2048x2048_S2048x2048_S2048x4096_d1⟩,
     ⟨S2048x4096, concatenate S2048x4096 1
        [⟨S2048x2048, transpose S2048x2048 [1, 0] adj transposes_S2048x2048_S2048x2048_1_0⟩,
         ⟨S2048x2048, broadcastInDim S2048x2048 ![] bcast_S_S2048x2048 (constant (F := F) S_ .f32 0x00000000#32)⟩]
        concatenates_S2048x2048_S2048x2048_S2048x4096_d1⟩]
    concatenates_S2048x4096_S2048x4096_S4096x4096_d0

/-- The feature matrix x · Wᵀ + b: the product of x with W transposed, plus the bias b spread
    first along a new unit row axis and then down the 4096 rows. -/
def support (x : FVec F S4096x128 .f32) (W : FVec F S64x128 .f32) (b : FVec F S64 .f32) : FVec F S4096x64 .f32 :=
  addf
    (Host.dotGeneral (F := F) dot_S4096x128_S128x64_S4096x64_1_0_0_1_n_n none x
      (transpose S128x64 [1, 0] W transposes_S64x128_S128x64_1_0))
    (broadcastInDim S4096x64 ![0, 1] bcast_S1x64_S4096x64_0_1
      (broadcastInDim S1x64 ![1] bcast_S64_S1x64_1 b))

/-- The reference's result: (diag(d) · [[0, adj], [adjᵀ, 0]]) · (x · Wᵀ + b), the two products in
    the order the reference takes them (the 4096 x 4096 product first). -/
def refOut (x : FVec F S4096x128 .f32) (adj : FVec F S2048x2048 .f32) (d : FVec F S4096 .f32)
    (W : FVec F S64x128 .f32) (b : FVec F S64 .f32) : FVec F S4096x64 .f32 :=
  Host.dotGeneral (F := F) dot_S4096x4096_S4096x64_S4096x64_1_0_0_1_n_n none
    (Host.dotGeneral (F := F) dot_S4096x4096_S4096x4096_S4096x4096_1_0_0_1_n_n none (diagOf d) (adjFull adj))
    (support x W b)

end Cert.ReferenceIdeal.Hand

end
-- ==== Proof.Ref.RefRun.lean ====
/-
  The reference's run, read back as `refOut`.

  The reference program has no kernel: it is a straight line of host operations, one of which is
  a call of the function that builds diag(d), which in turn calls the selection function. With
  the two bodies written out at their calls the program is a list of 29 operations (`ops`,
  `main_eq`); every weakly fair execution of such a line terminates with each buffer at the fold
  of the operations' results over the launch contents. Read at the result buffer, that fold is
  the composition of the operations from the last product back to the arguments — which is the
  term `refOut` of the five arguments (`out_eq`: nothing is evaluated, each step only names which
  operation wrote the buffer being read) — and at an argument buffer, which no operation writes,
  it is the launch contents.
-/
import proofs.«107181_g11785390260513_cont_main3_35_5_alg».proof.Proof.Ref.RefTerm
import proofs.«107181_g11785390260513_cont_main3_35_5_alg».proof.Proof.Gen.ReferenceIdeal
import Idealize.ShloMosaic.Lib.StableHlo.Run

noncomputable section

namespace Cert.ReferenceIdeal.Hand

open Idealize.ShloMosaic Cert.ReferenceIdeal

variable {F : FTy → Type} [FloatOps F] [Cert.ReferenceIdeal.Facts]
open Facts₀ Facts

open Idealize.ShloMosaic.TcCoe Idealize.SL.Sem Idealize.ShloMosaic.StableHlo

/-- The reference's 29 host operations, in program order: @main's first eight (the two zero
    blocks, adj transposed, the three concatenations building the symmetric adjacency), then the
    ten of the diagonal-matrix function run over its own buffers (the pad by nothing, the two
    iotas, the zero offset and its sum with the row iota, the equality mask, d as a column, the
    zero scalar), then the three of the selection function it calls (d's column spread along
    the columns, the zero spread over the matrix, the select), then @main's last eight (the
    4096 x 4096 product, W transposed, x · Wᵀ, the bias spread twice, the sum, the final
    product). -/
abbrev ops : List (HloOp τ sig (Elt F)) :=
  [ nullary main_cst (constant S_ .f32 0x00000000#32),
    unary main_cst main_v0 (broadcastInDim S2048x2048 ![] bcast_S_S2048x2048 : (⟨S_, .f32⟩ : BufTy).Contents (Elt F) → (⟨S2048x2048, .f32⟩ : BufTy).Contents (Elt F)),
    binary main_v0 main_arg1 main_v1 ((fun a b => concatenate S2048x4096 1 [⟨S2048x2048, a⟩, ⟨S2048x2048, b⟩] concatenates_S2048x2048_S2048x2048_S2048x4096_d1) : (⟨S2048x2048, .f32⟩ : BufTy).Contents (Elt F) → (⟨S2048x2048, .f32⟩ : BufTy).Contents (Elt F) → (⟨S2048x4096, .f32⟩ : BufTy).Contents (Elt F)),
    unary main_arg1 main_v2 ((transpose S2048x2048 [1, 0] · transposes_S2048x2048_S2048x2048_1_0) : (⟨S2048x2048, .f32⟩ : BufTy).Contents (Elt F) → (⟨S2048x2048, .f32⟩ : BufTy).Contents (Elt F)),
    nullary main_cst_0 (constant S_ .f32 0x00000000#32),
    unary main_cst_0 main_v3 (broadcastInDim S2048x2048 ![] bcast_S_S2048x2048 : (⟨S_, .f32⟩ : BufTy).Contents (Elt F) → (⟨S2048x2048, .f32⟩ : BufTy).Contents (Elt F)),
    binary main_v2 main_v3 main_v4 ((fun a b => concatenate S2048x4096 1 [⟨S2048x2048, a⟩, ⟨S2048x2048, b⟩] concatenates_S2048x2048_S2048x2048_S2048x4096_d1) : (⟨S2048x2048, .f32⟩ : BufTy).Contents (Elt F) → (⟨S2048x2048, .f32⟩ : BufTy).Contents (Elt F) → (⟨S2048x4096, .f32⟩ : BufTy).Contents (Elt F)),
    binary main_v1 main_v4 main_v5 ((fun a b => concatenate S4096x4096 0 [⟨S2048x4096, a⟩, ⟨S2048x4096, b⟩] concatenates_S2048x4096_S2048x4096_S4096x4096_d0) : (⟨S2048x4096, .f32⟩ : BufTy).Contents (Elt F) → (⟨S2048x4096, .f32⟩ : BufTy).Contents (Elt F) → (⟨S4096x4096, .f32⟩ : BufTy).Contents (Elt F)),
    TRef.nullary main_call0.cst (constant S_ .f32 0x00000000#32),
    TRef.binary (.of main_arg2 : TRef sig ⟨S4096, .f32⟩) main_call0.cst main_call0.v0 (fun x v => pad S4096 ![0] ![0] ![0] x v pads_S4096_S4096_000 h_S_),
    TRef.nullary main_call0.v1 (iotaInDim S4096x4096 32 0),
    TRef.nullary main_call0.v2 (iotaInDim S4096x4096 32 1),
    TRef.nullary main_call0.c (constantI S_ 32 0#32),
    TRef.unary main_call0.c main_call0.v3 (broadcastInDim S4096x4096 ![] bcast_S_S4096x4096),
    TRef.binary main_call0.v1 main_call0.v3 main_call0.v4 addi,
    TRef.binary main_call0.v4 main_call0.v2 main_call0.v5 (cmpi .eq),
    TRef.unary main_call0.v0 main_call0.v6 (broadcastInDim S4096x1 ![0] bcast_S4096_S4096x1_0),
    TRef.nullary main_call0.cst_0 (constant S_ .f32 0x00000000#32),
    TRef.unary main_call0.v6 main_call0.call0.v0 (broadcastInDim S4096x4096 ![0, 1] bcast_S4096x1_S4096x4096_0_1),
    TRef.unary main_call0.cst_0 main_call0.call0.v1 (broadcastInDim S4096x4096 ![] bcast_S_S4096x4096),
    TRef.ternary main_call0.v5 main_call0.call0.v0 main_call0.call0.v1 main_call0.call0.v2 select,
    binary main_v6 main_v5 main_v7 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg3 main_v8 ((transpose S128x64 [1, 0] · transposes_S64x128_S128x64_1_0) : (⟨S64x128, .f32⟩ : BufTy).Contents (Elt F) → (⟨S128x64, .f32⟩ : BufTy).Contents (Elt F)),
    binary main_arg0 main_v8 main_v9 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    unary main_arg4 main_v10 (broadcastInDim S1x64 ![1] bcast_S64_S1x64_1 : (⟨S64, .f32⟩ : BufTy).Contents (Elt F) → (⟨S1x64, .f32⟩ : BufTy).Contents (Elt F)),
    unary main_v10 main_v11 (broadcastInDim S4096x64 ![0, 1] bcast_S1x64_S4096x64_0_1 : (⟨S1x64, .f32⟩ : BufTy).Contents (Elt F) → (⟨S4096x64, .f32⟩ : BufTy).Contents (Elt F)),
    binary main_v9 main_v11 main_v12 (addf : (⟨S4096x64, .f32⟩ : BufTy).Contents (Elt F) → (⟨S4096x64, .f32⟩ : BufTy).Contents (Elt F) → (⟨S4096x64, .f32⟩ : BufTy).Contents (Elt F)),
    binary main_v7 main_v12 main_v13 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)) ]

set_option maxRecDepth 1024 in
/-- @main is that straight line: with the two functions' bodies unfolded at their calls and
    sequencing reassociated, both sides are the same chain of host steps. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., unary_bufs_sub .., binary_bufs_sub .., unary_bufs_sub .., unary_bufs_sub .., binary_bufs_sub ..,
    binary_bufs_sub ..⟩

/-- The result buffer after the line, from any contents `V`: each operation's value at its own
    buffer is its function of its operands' contents, every other buffer is left as it was, so
    reading back from the last product to the arguments composes the operations into `refOut`. -/
theorem out_eq (V : Valuation τ sig (Elt F)) :
    after ops V (Proc.devRef .tc main_v13)
      = refOut (V (Proc.devRef .tc main_arg0)) (V (Proc.devRef .tc main_arg1)) (V (Proc.devRef .tc main_arg2))
          (V (Proc.devRef .tc main_arg3)) (V (Proc.devRef .tc main_arg4)) := by
  after_results
  simp only [TRef.ofBuf, TRef.toBuf, cast_eq]
  rfl

/-- On every device, for any float values, from any memory with zero counters: every weakly fair
    execution of the reference terminates with the result buffer at `refOut` of the five
    arguments' launch contents, and the five arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v13).trans (out_eq (launchContents m c)),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.Hand

end
-- ==== Proof.Ref.RefValue.lean ====
/-
  The reference's result read at one entry, at the ideal values.

  The reference computes (D · A) · H with D = diag(d) the 4096 x 4096 degree matrix, A = [[0, adj], [adjᵀ, 0]] the
  4096 x 4096 symmetric adjacency and H = x · Wᵀ + b the 4096 x 64 feature matrix. Each of the three is read here at an
  entry named by its two coordinates, and then the two products, each entry a sum of products over the contracted
  coordinate:

    D (i, k) = d i if i = k, else 0          — the mask "row + 0 = column" compares two numbers below 4096 as 32-bit
                                               words, which is the comparison of the numbers;
    A (k, j)                                  — by the half k lies in and the half j lies in, a zero, an entry of adj,
                                               or the mirrored entry of adj;
    H (j, h) = (Σ_q x (j, q) · W (h, q)) + b h;
    result (i, h) = Σ_j (Σ_k D (i, k) · A (k, j)) · H (j, h).

  Nothing here uses a law of the extended reals: each operation is read at the entry and the sums keep their order.
-/
import proofs.«107181_g11785390260513_cont_main3_35_5_alg».proof.Proof.Ref.RefTerm
import proofs.«107181_g11785390260513_cont_main3_35_5_alg».proof.Proof.Spec
import proofs.«107181_g11785390260513_cont_main3_35_5_alg».proof.Proof.LibDotPlain
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.HandValue

open Idealize.ShloMosaic Idealize.ShloMosaic.ValueIdx Cert.ReferenceIdeal Cert.ReferenceIdeal.Hand

variable [Cert.ReferenceIdeal.Facts]
open Facts₀ Facts

/-! ## The degree matrix -/

/-- Two numbers below 4096 are the same 32-bit word only if they are the same number. -/
theorem ofNat32_inj (a b : Nat) (ha : a < 4096) (hb : b < 4096) (h : BitVec.ofNat 32 a = BitVec.ofNat 32 b) : a = b := by
  have e := congrArg BitVec.toNat h
  rw [BitVec.toNat_ofNat, BitVec.toNat_ofNat, Nat.mod_eq_of_lt (by omega), Nat.mod_eq_of_lt (by omega)] at e
  exact e

/-- The diagonal mask at (i, k): the row number with the zero word added, compared with the column number, is the
    one bit exactly on the diagonal. -/
theorem mask_apply (i k : Fin 4096) :
    cmpi .eq
      (addi (iotaInDim S4096x4096 32 0)
        (broadcastInDim S4096x4096 ![] bcast_S_S4096x4096 (constantI S_ 32 0#32)))
      (iotaInDim S4096x4096 32 1) (ix2 i k) = if i = k then 1#1 else 0#1 := by
  show IntOp.cmpi .eq (IntOp.addi (BitVec.ofNat 32 i.val)
      (broadcastInDim S4096x4096 ![] bcast_S_S4096x4096 (constantI S_ 32 0#32) (ix2 i k))) (BitVec.ofNat 32 k.val) = _
  rw [broadcastInDim_scalar_apply]
  show BitVec.ofBool (BitVec.ofNat 32 i.val + 0#32 == BitVec.ofNat 32 k.val) = _
  rw [BitVec.add_zero]
  by_cases h : i = k
  · subst h
    rw [if_pos rfl, beq_self_eq_true]
    rfl
  · rw [if_neg h]
    have hne : ¬ BitVec.ofNat 32 i.val = BitVec.ofNat 32 k.val := fun e =>
      h (Fin.ext (ofNat32_inj _ _ i.isLt k.isLt e))
    rw [beq_eq_false_iff_ne.2 hne]
    rfl

/-- The degrees spread over the rows: padded by nothing, laid along a new unit column axis, then along the columns,
    entry (i, k) is d i. -/
theorem diagTrue_apply (d : FVec Ideal S4096 .f32) (i k : Fin 4096) :
    broadcastInDim S4096x4096 ![0, 1] bcast_S4096x1_S4096x4096_0_1
      (broadcastInDim S4096x1 ![0] bcast_S4096_S4096x1_0
        (pad S4096 ![0] ![0] ![0] d (constant (F := Ideal) S_ .f32 0x00000000#32) pads_S4096_S4096_000 h_S_)) (ix2 i k)
      = d (ix1 i) := by
  refine (broadcastInDim_apply ![0, 1] bcast_S4096x1_S4096x4096_0_1 _ (ix2 i k) (ix2 i (0 : Fin 1))
    (fun a => match a with | ⟨0, _⟩ => rfl | ⟨1, _⟩ => rfl)).trans ?_
  refine (broadcastInDim_apply ![0] bcast_S4096_S4096x1_0 _ (ix2 i (0 : Fin 1)) (ix1 i)
    (fun a => match a with | ⟨0, _⟩ => rfl)).trans ?_
  exact pad_apply_of_inside ![0] ![0] ![0] d _ pads_S4096_S4096_000 h_S_ (ix1 i) (ix1 i)
    (fun a => match a with | ⟨0, _⟩ => by show i.val = 0 + i.val * (0 + 1); omega)

/-- The zero constant spread over a whole array is 0 at every entry. -/
theorem zeros_apply {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

/-- The degree matrix at (i, k): d i on the diagonal, 0 off it. -/
theorem diagOf_apply (d : FVec Ideal S4096 .f32) (i k : Fin 4096) :
    diagOf d (ix2 i k) = Cert.Spec.diagE d i k := by
  unfold diagOf
  rw [select_apply, mask_apply, diagTrue_apply, zeros_apply]
  unfold Cert.Spec.diagE
  by_cases h : i = k
  · rw [if_pos h, if_pos h, select_one]
  · rw [if_neg h, if_neg h, select_zero]

/-! ## The symmetric adjacency -/

section Concat
variable {α : Type}

/-- Two 2048 x 2048 blocks side by side, at (k, j): the left block while j is below 2048, then the right block at
    column j − 2048. -/
theorem concat1_apply (x₁ x₂ : S2048x2048.Idx → α) (k : Fin 2048) (j : Fin 4096) :
    concatenate S2048x4096 1 [⟨S2048x2048, x₁⟩, ⟨S2048x2048, x₂⟩] concatenates_S2048x2048_S2048x2048_S2048x4096_d1 (ix2 k j)
      = if hj : j.val < 2048 then x₁ (ix2 k ⟨j.val, hj⟩)
        else x₂ (ix2 k ⟨j.val - 2048, by have := j.isLt; omega⟩) := by
  by_cases hj : j.val < 2048
  · rw [dif_pos hj]
    exact concatenate_pair_apply_left (1 : Fin 2) x₁ x₂ concatenates_S2048x2048_S2048x2048_S2048x4096_d1 (ix2 k j) rfl
      (ix2 k ⟨j.val, hj⟩) (fun b => match b with | ⟨0, _⟩ => rfl | ⟨1, _⟩ => rfl)
  · rw [dif_neg hj]
    exact concatenate_pair_apply_right (1 : Fin 2) x₁ x₂ concatenates_S2048x2048_S2048x2048_S2048x4096_d1 (ix2 k j) rfl rfl
      (ix2 k ⟨j.val - 2048, by have := j.isLt; omega⟩)
      (fun b hb => match b, hb with
        | ⟨0, _⟩, _ => rfl
        | ⟨1, _⟩, hb => absurd rfl hb)
      (by show (j.val - 2048) + 2048 = j.val; omega)

/-- Two 2048 x 4096 halves stacked, at (k, j): the upper half while k is below 2048, then the lower half at row
    k − 2048. -/
theorem concat0_apply (y₁ y₂ : S2048x4096.Idx → α) (k j : Fin 4096) :
    concatenate S4096x4096 0 [⟨S2048x4096, y₁⟩, ⟨S2048x4096, y₂⟩] concatenates_S2048x4096_S2048x4096_S4096x4096_d0 (ix2 k j)
      = if hk : k.val < 2048 then y₁ (ix2 ⟨k.val, hk⟩ j)
        else y₂ (ix2 ⟨k.val - 2048, by have := k.isLt; omega⟩ j) := by
  by_cases hk : k.val < 2048
  · rw [dif_pos hk]
    exact concatenate_pair_apply_left (0 : Fin 2) y₁ y₂ concatenates_S2048x4096_S2048x4096_S4096x4096_d0 (ix2 k j) rfl
      (ix2 ⟨k.val, hk⟩ j) (fun b => match b with | ⟨0, _⟩ => rfl | ⟨1, _⟩ => rfl)
  · rw [dif_neg hk]
    exact concatenate_pair_apply_right (0 : Fin 2) y₁ y₂ concatenates_S2048x4096_S2048x4096_S4096x4096_d0 (ix2 k j) rfl rfl
      (ix2 ⟨k.val - 2048, by have := k.isLt; omega⟩ j)
      (fun b hb => match b, hb with
        | ⟨0, _⟩, hb => absurd rfl hb
        | ⟨1, _⟩, _ => rfl)
      (by show (k.val - 2048) + 2048 = k.val; omega)

end Concat

/-- The symmetric adjacency at (k, j): zero when k and j lie in the same half, adj (k, j − 2048) in the upper right
    block, and in the lower left block the transposed entry adj (j, k − 2048). -/
theorem adjFull_apply (adj : FVec Ideal S2048x2048 .f32) (k j : Fin 4096) :
    adjFull adj (ix2 k j) = Cert.Spec.adjF adj k j := by
  unfold adjFull Cert.Spec.adjF
  rw [concat0_apply]
  by_cases hk : k.val < 2048
  · rw [dif_pos hk, dif_pos hk, concat1_apply]
    by_cases hj : j.val < 2048
    · rw [dif_pos hj, dif_pos hj, zeros_apply]
    · rw [dif_neg hj, dif_neg hj]
  · rw [dif_neg hk, dif_neg hk, concat1_apply]
    by_cases hj : j.val < 2048
    · rw [dif_pos hj, dif_pos hj]
      exact transpose_ix2_apply adj transposes_S2048x2048_S2048x2048_1_0 _ _
    · rw [dif_neg hj, dif_neg hj, zeros_apply]

/-! ## The feature matrix -/

/-- The bias spread down the rows: laid along a new unit row axis, then down the 4096 rows, entry (j, h) is b h. -/
theorem bias_apply (b : FVec Ideal S64 .f32) (j : Fin 4096) (h : Fin 64) :
    broadcastInDim S4096x64 ![0, 1] bcast_S1x64_S4096x64_0_1
      (broadcastInDim S1x64 ![1] bcast_S64_S1x64_1 b) (ix2 j h) = b (ix1 h) := by
  refine (broadcastInDim_apply ![0, 1] bcast_S1x64_S4096x64_0_1 _ (ix2 j h) (ix2 (0 : Fin 1) h)
    (fun a => match a with | ⟨0, _⟩ => rfl | ⟨1, _⟩ => rfl)).trans ?_
  exact broadcastInDim_apply ![1] bcast_S64_S1x64_1 b (ix2 (0 : Fin 1) h) (ix1 h)
    (fun a => match a with | ⟨0, _⟩ => rfl)

/-- The 4096 x 128 by 128 x 64 product at (j, h). -/
theorem dotXW_apply (A : FVec Ideal S4096x128 .f32) (B : FVec Ideal S128x64 .f32) (j : Fin 4096) (h : Fin 64) :
    Host.dotGeneral (F := Ideal) dot_S4096x128_S128x64_S4096x64_1_0_0_1_n_n none A B (ix2 j h)
      = ∑ q : Fin 128, A (ix2 j q) * B (ix2 q h) :=
  Cert.LibDotPlain.dotGeneral_plain 4096 128 64 none .single A B j h

/-- The feature matrix at (j, h): row j of x against row h of W, plus b h. -/
theorem support_apply (x : FVec Ideal S4096x128 .f32) (W : FVec Ideal S64x128 .f32) (b : FVec Ideal S64 .f32)
    (j : Fin 4096) (h : Fin 64) : support x W b (ix2 j h) = Cert.Spec.sup x W b j h := by
  unfold support Cert.Spec.sup
  rw [addf_apply, bias_apply, dotXW_apply]
  refine congrArg (· + b (ix1 h)) ?_
  exact Finset.sum_congr rfl fun q _ => by
    rw [transpose_ix2_apply W transposes_S64x128_S128x64_1_0 q h]

/-! ## The two products -/

/-- The 4096 x 4096 by 4096 x 4096 product at (i, j). -/
theorem dotDA_apply (A B : FVec Ideal S4096x4096 .f32) (i j : Fin 4096) :
    Host.dotGeneral (F := Ideal) dot_S4096x4096_S4096x4096_S4096x4096_1_0_0_1_n_n none A B (ix2 i j)
      = ∑ k : Fin 4096, A (ix2 i k) * B (ix2 k j) :=
  Cert.LibDotPlain.dotGeneral_plain 4096 4096 4096 none .single A B i j

/-- The 4096 x 4096 by 4096 x 64 product at (i, h). -/
theorem dotOut_apply (A : FVec Ideal S4096x4096 .f32) (B : FVec Ideal S4096x64 .f32) (i : Fin 4096) (h : Fin 64) :
    Host.dotGeneral (F := Ideal) dot_S4096x4096_S4096x64_S4096x64_1_0_0_1_n_n none A B (ix2 i h)
      = ∑ j : Fin 4096, A (ix2 i j) * B (ix2 j h) :=
  Cert.LibDotPlain.dotGeneral_plain 4096 4096 64 none .single A B i h

/-- The reference's result at (i, h): the sum over j of (Σ_k D (i, k) · A (k, j)) · H (j, h). -/
theorem refOut_apply (x : FVec Ideal S4096x128 .f32) (adj : FVec Ideal S2048x2048 .f32) (d : FVec Ideal S4096 .f32)
    (W : FVec Ideal S64x128 .f32) (b : FVec Ideal S64 .f32) (i : Fin 4096) (h : Fin 64) :
    refOut x adj d W b (ix2 i h) = Cert.Spec.rAt x adj d W b i h := by
  unfold refOut Cert.Spec.rAt
  rw [dotOut_apply]
  refine Finset.sum_congr rfl fun j _ => ?_
  rw [support_apply, dotDA_apply]
  refine congrArg (· * Cert.Spec.sup x W b j h) ?_
  exact Finset.sum_congr rfl fun k _ => by rw [diagOf_apply, adjFull_apply]

end Cert.ReferenceIdeal.HandValue

end
-- ==== Proof.Algebra.lean ====
/-
  The streamed reading and the dense reading of the layer's result agree when every input entry is a real number.

  With real entries the support is real, both readings are finite sums of products of reals, hence coercions of real
  numbers, and the identity is one over ℝ.  In the dense reading the inner sum Σ_k D(i, k) · A(k, j) has the one nonzero
  term k = i, so the reading is Σ_j d(i) · A(i, j) · sup(j, h).  The sum over the 4096 columns splits into the columns
  below 2048 and the rest; one of the two blocks of A's row i vanishes.  For a row of the first part what remains is
  d(i) · Σ_j adj(i, j) · sup(2048 + j, h).  For a row 2048 + j of the second part what remains is
  Σ_r d(2048 + j) · adj(r, j) · sup(r, h)  over the 2048 rows r of adj, which regroups into the four blocks of 512 rows,
  in the order the blocks are streamed.
-/
import proofs.«107181_g11785390260513_cont_main3_35_5_alg».proof.Proof.Spec
import Mathlib.Algebra.BigOperators.Fin
import Mathlib.Algebra.BigOperators.Ring.Finset
import Mathlib.Logic.Equiv.Fin.Basic
import Mathlib.Data.EReal.Basic
import Mathlib.Tactic.Ring

noncomputable section

open scoped BigOperators

namespace Cert.Spec

open Idealize.ShloMosaic Idealize.ShloMosaic.ValueIdx

/-! ## Sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Index bookkeeping -/

/-- Every node of the graph is a node of the first part or a node of the second part. -/
theorem lo_or_hi (i : Fin 4096) : (∃ i' : Fin 2048, i = lo i') ∨ (∃ j' : Fin 2048, i = hi j') := by
  by_cases hlt : i.val < 2048
  · exact Or.inl ⟨⟨i.val, hlt⟩, Fin.ext rfl⟩
  · exact Or.inr ⟨⟨i.val - 2048, by omega⟩, Fin.ext (by show i.val = 2048 + (i.val - 2048); omega)⟩

/-- A sum over all nodes is the sum over the first part plus the sum over the second part. -/
theorem sum_lo_hi (f : Fin 4096 → ℝ) :
    ∑ j : Fin 4096, f j = ∑ j : Fin 2048, f (lo j) + ∑ j : Fin 2048, f (hi j) :=
  Fin.sum_univ_add (a := 2048) (b := 2048) f

/-- A sum over the 2048 rows of adj is the sum of the four sums over its blocks of 512 rows, added in order. -/
theorem sum_blocks (g : Fin 2048 → ℝ) :
    ∑ r : Fin 2048, g r
      = ((∑ r : Fin 512, g (row 0 r) + ∑ r : Fin 512, g (row 1 r)) + ∑ r : Fin 512, g (row 2 r))
          + ∑ r : Fin 512, g (row 3 r) := by
  have e : ∑ r : Fin 2048, g r = ∑ p : Fin 4 × Fin 512, g (row p.1 p.2) := by
    refine (Fintype.sum_equiv (finProdFinEquiv (m := 4) (n := 512)) (fun p => g (row p.1 p.2)) g (fun p => ?_)).symm
    refine congrArg g (Fin.ext ?_)
    show 512 * p.1.val + p.2.val = p.2.val + 512 * p.1.val
    omega
  rw [e, Fintype.sum_prod_type, Fin.sum_univ_four]

/-! ## The two readings over the reals -/

section Reals

variable (S : Fin 4096 → ℝ) (A : Fin 2048 → Fin 2048 → ℝ) (D : Fin 4096 → ℝ)

/-- A row of the first part, over the reals. -/
def topR (i : Fin 2048) : ℝ := D (lo i) * ∑ j : Fin 2048, A i j * S (hi j)

/-- One block's contribution, over the reals. -/
def contribR (blk : Fin 4) (j : Fin 2048) : ℝ := ∑ r : Fin 512, S (lo (row blk r)) * A (row blk r) j

/-- The four contributions added in order, over the reals. -/
def accR (j : Fin 2048) : ℝ := ((contribR S A 0 j + contribR S A 1 j) + contribR S A 2 j) + contribR S A 3 j

/-- A row of the second part, over the reals. -/
def botR (j : Fin 2048) : ℝ := D (hi j) * accR S A j

/-- The symmetric block matrix, over the reals. -/
def adjFR (k j : Fin 4096) : ℝ :=
  if hk : k.val < 2048 then
    (if hj : j.val < 2048 then 0 else A ⟨k.val, hk⟩ ⟨j.val - 2048, by omega⟩)
  else
    (if hj : j.val < 2048 then A ⟨j.val, hj⟩ ⟨k.val - 2048, by omega⟩ else 0)

/-- The dense reading, over the reals. -/
def rAtR (i : Fin 4096) : ℝ :=
  ∑ j : Fin 4096, (∑ k : Fin 4096, (if i = k then D i else 0) * adjFR A k j) * S j

theorem not_hi_lt (j : Fin 2048) : ¬ (hi j).val < 2048 := by
  show ¬ (2048 + j.val < 2048); omega

theorem adjFR_lo_lo (i j : Fin 2048) : adjFR A (lo i) (lo j) = 0 := by
  unfold adjFR
  rw [dif_pos (show (lo i).val < 2048 from i.isLt), dif_pos (show (lo j).val < 2048 from j.isLt)]

theorem adjFR_lo_hi (i j : Fin 2048) : adjFR A (lo i) (hi j) = A i j := by
  unfold adjFR
  rw [dif_pos (show (lo i).val < 2048 from i.isLt), dif_neg (not_hi_lt j)]
  exact congrArg₂ A (Fin.ext rfl) (Fin.ext (by show 2048 + j.val - 2048 = j.val; omega))

theorem adjFR_hi_lo (i j : Fin 2048) : adjFR A (hi i) (lo j) = A j i := by
  unfold adjFR
  rw [dif_neg (not_hi_lt i), dif_pos (show (lo j).val < 2048 from j.isLt)]
  exact congrArg₂ A (Fin.ext rfl) (Fin.ext (by show 2048 + i.val - 2048 = i.val; omega))

theorem adjFR_hi_hi (i j : Fin 2048) : adjFR A (hi i) (hi j) = 0 := by
  unfold adjFR
  rw [dif_neg (not_hi_lt i), dif_neg (not_hi_lt j)]

/-- The diagonal matrix picks row i of the block matrix. -/
theorem rAtR_eq (i : Fin 4096) : rAtR S A D i = ∑ j : Fin 4096, D i * adjFR A i j * S j := by
  unfold rAtR
  refine Finset.sum_congr rfl fun j _ => ?_
  congr 1
  simp only [ite_mul, zero_mul]
  rw [Finset.sum_ite_eq]
  simp

/-- The dense reading at a row of the first part. -/
theorem rAtR_lo (i : Fin 2048) : rAtR S A D (lo i) = topR S A D i := by
  rw [rAtR_eq, sum_lo_hi]
  simp only [adjFR_lo_lo, adjFR_lo_hi, mul_zero, zero_mul, Finset.sum_const_zero, zero_add]
  unfold topR
  rw [Finset.mul_sum]
  exact Finset.sum_congr rfl fun j _ => by ring

/-- The dense reading at a row of the second part. -/
theorem rAtR_hi (j : Fin 2048) : rAtR S A D (hi j) = botR S A D j := by
  rw [rAtR_eq, sum_lo_hi]
  simp only [adjFR_hi_lo, adjFR_hi_hi, mul_zero, zero_mul, Finset.sum_const_zero, add_zero]
  have hblk : ∀ blk : Fin 4, ∑ r : Fin 512, D (hi j) * A (row blk r) j * S (lo (row blk r))
      = D (hi j) * contribR S A blk j := by
    intro blk
    unfold contribR
    rw [Finset.mul_sum]
    exact Finset.sum_congr rfl fun r _ => by ring
  rw [sum_blocks (fun r => D (hi j) * A r j * S (lo r))]
  beta_reduce
  rw [hblk, hblk, hblk, hblk]
  unfold botR accR
  ring

end Reals

/-! ## The two readings are coercions of their real twins -/

section Coe

variable (x : FVec Ideal SX .f32) (adj : FVec Ideal SAdj .f32) (d : FVec Ideal SD .f32)
  (W : FVec Ideal SW .f32) (b : FVec Ideal SB .f32)

/-- With real features, weights and bias the support is real. -/
theorem sup_real (hx : Finite x) (hW : Finite W) (hb : Finite b) :
    ∃ S : Fin 4096 → Fin 64 → ℝ, ∀ j h, sup x W b j h = (S j h : EReal) := by
  choose xr hxr using hx
  choose Wr hWr using hW
  choose br hbr using hb
  refine ⟨fun j h => (∑ q : Fin 128, xr (ix2 j q) * Wr (ix2 h q)) + br (ix1 h), fun j h => ?_⟩
  unfold sup
  simp only [hxr, hWr, hbr, EReal.coe_add, coe_sum, EReal.coe_mul]

variable (h : Fin 64) (S : Fin 4096 → ℝ) (A : Fin 2048 → Fin 2048 → ℝ) (D : Fin 4096 → ℝ)
  (hS : ∀ j, sup x W b j h = (S j : EReal)) (hA : ∀ i j, adj (ix2 i j) = (A i j : EReal))
  (hD : ∀ i, d (ix1 i) = (D i : EReal))

include hS hA hD in
theorem top_coe (i : Fin 2048) : top x adj d W b i h = (topR S A D i : EReal) := by
  unfold top topR
  simp only [hS, hA, hD, EReal.coe_add, coe_sum, EReal.coe_mul]

include hS hA in
theorem contrib_coe (blk : Fin 4) (j : Fin 2048) : contrib x adj W b blk h j = (contribR S A blk j : EReal) := by
  unfold contrib contribR
  simp only [hS, hA, coe_sum, EReal.coe_mul]

include hS hA hD in
theorem bot_coe (j : Fin 2048) : bot x adj d W b j h = (botR S A D j : EReal) := by
  unfold bot acc botR accR
  simp only [contrib_coe x adj W b h S A hS hA, hD, EReal.coe_add, EReal.coe_mul]

include hD in
theorem diagE_coe (i k : Fin 4096) : diagE d i k = ((if i = k then D i else 0 : ℝ) : EReal) := by
  unfold diagE
  split_ifs
  · exact hD i
  · exact EReal.coe_zero.symm

include hA in
theorem adjF_coe (k j : Fin 4096) : adjF adj k j = (adjFR A k j : EReal) := by
  unfold adjF adjFR
  split_ifs
  · exact EReal.coe_zero.symm
  · exact hA _ _
  · exact hA _ _
  · exact EReal.coe_zero.symm

include hS hA hD in
theorem rAt_coe (i : Fin 4096) : rAt x adj d W b i h = (rAtR S A D i : EReal) := by
  unfold rAt rAtR
  simp only [hS, diagE_coe d D hD, adjF_coe adj A hA, coe_sum, EReal.coe_mul]

theorem kAt_lo (i : Fin 2048) : kAt x adj d W b (lo i) h = top x adj d W b i h := by
  unfold kAt
  rw [dif_pos (show (lo i).val < 2048 from i.isLt)]
  exact congrArg (fun t => top x adj d W b t h) (Fin.ext rfl)

theorem kAt_hi (j : Fin 2048) : kAt x adj d W b (hi j) h = bot x adj d W b j h := by
  unfold kAt
  rw [dif_neg (not_hi_lt j)]
  exact congrArg (fun t => bot x adj d W b t h) (Fin.ext (by show 2048 + j.val - 2048 = j.val; omega))

end Coe

/-- On finite inputs the streamed reading is the dense reading. -/
theorem kAt_eq_rAt (x : FVec Ideal SX .f32) (adj : FVec Ideal SAdj .f32) (d : FVec Ideal SD .f32)
    (W : FVec Ideal SW .f32) (b : FVec Ideal SB .f32)
    (hx : Finite x) (hadj : Finite adj) (hd : Finite d) (hW : Finite W) (hb : Finite b)
    (i : Fin 4096) (h : Fin 64) : kAt x adj d W b i h = rAt x adj d W b i h := by
  obtain ⟨S, hS⟩ := sup_real x W b hx hW hb
  choose Ar hAr using hadj
  choose Dr hDr using hd
  have hS' : ∀ j, sup x W b j h = ((fun j => S j h) j : EReal) := fun j => hS j h
  have hA : ∀ i j, adj (ix2 i j) = ((fun i j => Ar (ix2 i j)) i j : EReal) := fun i j => hAr _
  have hD : ∀ i, d (ix1 i) = ((fun i => Dr (ix1 i)) i : EReal) := fun i => hDr _
  rw [rAt_coe x adj d W b h _ _ _ hS' hA hD]
  rcases lo_or_hi i with ⟨i', rfl⟩ | ⟨j', rfl⟩
  · rw [kAt_lo, top_coe x adj d W b h _ _ _ hS' hA hD, rAtR_lo]
  · rw [kAt_hi, bot_coe x adj d W b h _ _ _ hS' hA hD, rAtR_hi]

end Cert.Spec

end
-- ==== Proof.FiniteInputs.lean ====
/-
  Finiteness out of the precondition.

  The precondition is the conjunction, over the five argument arrays, of  all(|v| < +∞):  each array's absolute
  value is compared, entry by entry, with the f32 pattern of +∞, the comparisons are folded by "and" into one
  truth value, and the five truth values are conjoined.  If the result is true then every conjunct is true, every
  entry of every comparison is true, and an extended real v with  max v (-v) < ⊤  is neither ⊤ nor ⊥ (for both,
  max v (-v) = ⊤), hence a real number.
-/
import proofs.«107181_g11785390260513_cont_main3_35_5_alg».proof.Pre_finite_inputs
import proofs.«107181_g11785390260513_cont_main3_35_5_alg».proof.Proof.Gen.Pre_finite_inputs
import proofs.«107181_g11785390260513_cont_main3_35_5_alg».proof.Proof.Spec
import Idealize.ShloMosaic.Lib.ReduceAll

noncomputable section

namespace Cert.Spec

open Idealize.ShloMosaic Idealize.ShloMosaic.ValueIdx

/-- The shape of a scalar has exactly one index. -/
instance subsingleton_scalar_idx : Subsingleton Cert.Pre_finite_inputs.S_.Idx :=
  ⟨fun a b => funext fun d => d.elim0⟩

/-- The f32 pattern with every exponent bit set, sign and fraction clear, denotes +∞. -/
theorem ofBits_inf_f32 : Ideal.ofBits .f32 0x7F800000#32 = (⊤ : EReal) := by
  simp [Ideal.ofBits, Ideal.ieee]

/-- An extended real whose absolute value (the larger of it and its negation) compares below +∞ is a real. -/
theorem real_of_abs_lt (v : EReal)
    (h : Ideal.cmp .olt (max v (-v)) (Ideal.ofBits .f32 0x7F800000#32) = 1#1) :
    ∃ r : ℝ, v = (r : EReal) := by
  rw [ofBits_inf_f32] at h
  induction v using EReal.rec with
  | bot => simp [Ideal.cmp] at h
  | coe r => exact ⟨r, rfl⟩
  | top => simp [Ideal.cmp] at h

/-- One conjunct of the precondition, all(|v| < +∞), read at an index: the entry there is a real. -/
theorem finite_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu ix0 = 1#1) :
    Finite v :=
  fun i => real_of_abs_lt (v i) (Host.reduce_andi_all _ _ hr hu ix0 e i)

/-- Under the precondition every entry of every argument array is a real number. -/
theorem finite_of_pre [Cert.Pre_finite_inputs.Facts] (x : FVec Ideal SX .f32) (adj : FVec Ideal SAdj .f32)
    (d : FVec Ideal SD .f32) (W : FVec Ideal SW .f32) (b : FVec Ideal SB .f32)
    (hpre : Cert.Pre_finite_inputs.fn (F := Ideal) x adj d W b = (fun _ => 1#1)) :
    Finite x ∧ Finite adj ∧ Finite d ∧ Finite W ∧ Finite b := by
  have h0 := congrFun hpre ValueIdx.ix0
  dsimp only [Cert.Pre_finite_inputs.fn, Cert.Pre_finite_inputs.fn_part1] at h0
  -- the conjunction is nested to the left: ((((x ∧ adj) ∧ d) ∧ W) ∧ b)
  obtain ⟨h0, hb⟩ := IntOp.andi_eq_one.1 h0
  obtain ⟨h0, hW⟩ := IntOp.andi_eq_one.1 h0
  obtain ⟨h0, hd⟩ := IntOp.andi_eq_one.1 h0
  obtain ⟨hx, hadj⟩ := IntOp.andi_eq_one.1 h0
  exact ⟨finite_of_all x _ _ _ hx, finite_of_all adj _ _ _ hadj, finite_of_all d _ _ _ hd,
    finite_of_all W _ _ _ hW, finite_of_all b _ _ _ hb⟩

end Cert.Spec

end
-- ==== Proof.lean ====
/-
  The certificate of the graph-convolution layer: out = diag(degree) · [[0, adj], [adjᵀ, 0]] · (input · Wᵀ + b).

  The kernel computes the support sup = input · Wᵀ + b once (first region), then streams the adjacency in four blocks
  of 512 rows (second region): rows of the first part are degree · (adj_block · sup₂); for the second part it
  accumulates sup₁ᵀ_block · adj_block over the blocks and finishes with degree · accᵀ. The reference multiplies the
  dense 4096 × 4096 matrices on the host.

  Frames: each program's @main is followed item by item from the launch to the return (the kernel's through both
  regions, with the accumulator carried in the second region's invariant; the reference's as a line of host
  operations), and the arguments are read back unchanged. Values: at the extended reals the kernel's result is the
  streamed reading and the reference's the dense reading of one function of the arguments; with every input finite
  both are sums of products of real numbers, and the two readings agree by pulling the degree out of the inner sum,
  dropping the zero blocks, and regrouping the sum over the first part's nodes into the four blocks.
-/
import proofs.«107181_g11785390260513_cont_main3_35_5_alg».proof.Defs
import proofs.«107181_g11785390260513_cont_main3_35_5_alg».proof.Proof.Gen.Kernel
import proofs.«107181_g11785390260513_cont_main3_35_5_alg».proof.Proof.Gen.KernelIdeal
import proofs.«107181_g11785390260513_cont_main3_35_5_alg».proof.Proof.Gen.ReferenceIdeal
import proofs.«107181_g11785390260513_cont_main3_35_5_alg».proof.Proof.Gen.Pre_finite_inputs
import proofs.«107181_g11785390260513_cont_main3_35_5_alg».proof.Proof.KB.Run
import proofs.«107181_g11785390260513_cont_main3_35_5_alg».proof.Proof.KI.Run
import proofs.«107181_g11785390260513_cont_main3_35_5_alg».proof.Proof.KI.ValueMain
import proofs.«107181_g11785390260513_cont_main3_35_5_alg».proof.Proof.Ref.RefRun
import proofs.«107181_g11785390260513_cont_main3_35_5_alg».proof.Proof.Ref.RefValue
import proofs.«107181_g11785390260513_cont_main3_35_5_alg».proof.Proof.Algebra
import proofs.«107181_g11785390260513_cont_main3_35_5_alg».proof.Proof.FiniteInputs

noncomputable section

namespace Cert.Proof

open Idealize.ShloMosaic Idealize.ShloMosaic.TcCoe Idealize.SL.Sem Idealize.ShloMosaic.ValueIdx

/-- The word-level kernel runs to the end and leaves its arguments as launched. -/
theorem frame_k : Cert.frame_Kernel := fun m ρ _ => Cert.Kernel.Hand.frame m ρ

/-- So does the kernel read at the extended reals. -/
theorem frame_ki : Cert.frame_KernelIdeal := fun m ρ _ => Cert.KernelIdeal.Hand.frame m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on finite arguments both programs end with the same array: the kernel's is the streamed
    reading of the arguments, the reference's the dense reading, and the two agree on finite inputs. -/
theorem algebraic : Cert.algebraic_KernelIdeal_ReferenceIdeal := by
  intro m ρ m' ρ' hpre hagree
  refine ⟨fun c => Cert.KernelIdeal.Hand.W5 m c (Proc.devRef .tc Cert.KernelIdeal.main_v9), ?_, ?_⟩
  · exact (θ_run Cert.KernelIdeal.defs _ _).mono (fun _ h c =>
      ⟨h c _ (Cert.KernelIdeal.Hand.mem_uc Cert.KernelIdeal.main_v9 (by decide)),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c),
       (h c _ (Cert.KernelIdeal.Hand.mem_uc Cert.KernelIdeal.main_arg4 (by decide))).trans (Cert.KernelIdeal.Hand.W5_main_arg4 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Hand.run (F := Ideal) m' ρ')
    obtain ⟨hx, hadj, hd, hW, hb⟩ := Cert.Spec.finite_of_pre _ _ _ _ _ (hpre c)
    rw [(hagree c).1, (hagree c).2.1, (hagree c).2.2.1, (hagree c).2.2.2.1, (hagree c).2.2.2.2]
    funext j
    obtain ⟨i, k, rfl⟩ : ∃ (i : Fin 4096) (k : Fin 64), j = ix2 i k := ⟨j 0, j 1, eq_ix2 j⟩
    rw [Cert.ReferenceIdeal.HandValue.refOut_apply, ← Cert.Spec.kAt_eq_rAt _ _ _ _ _ hx hadj hd hW hb]
    exact (Cert.KernelIdeal.HandValue.result_apply m c i k).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
